-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S8192x256 .f32) (main_arg1 : FVec F S8192x8192 .f32) (main_arg2 : FVec F S8192x8192 .f32) (main_arg3 : FVec F S256x256 .f32) (main_arg4 : FVec F S8192 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S8192 : Shape := ⟨1, ![8192]⟩
abbrev S2048x256 : Shape := ⟨2, ![2048, 256]⟩
abbrev S8192x1 : Shape := ⟨2, ![8192, 1]⟩
abbrev S1024x2048 : Shape := ⟨2, ![1024, 2048]⟩
abbrev S1024x1 : Shape := ⟨2, ![1024, 1]⟩
abbrev S1024x256 : Shape := ⟨2, ![1024, 256]⟩

abbrev nBuf : Space → Nat
  | .hbm => 9
  | .vmem => 22
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192x8192, .f32⟩
  | .hbm, ⟨3, _⟩ => ⟨S256x256, .f32⟩
  | .hbm, ⟨4, _⟩ => ⟨S8192, .f32⟩
  | .hbm, ⟨5, _⟩ => ⟨S8192x256, .f32⟩
  | .hbm, ⟨6, _⟩ => ⟨S8192x1, .f32⟩
  | .hbm, ⟨7, _⟩ => ⟨S8192x256, .f32⟩
  | .hbm, ⟨8, _⟩ => ⟨S8192x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S1024x2048, .f32⟩
  | .local _ .vmem, ⟨7, _⟩ => ⟨S1024x2048, .f32⟩
  | .local _ .vmem, ⟨8, _⟩ => ⟨S2048x256, .f32⟩
  | .local _ .vmem, ⟨9, _⟩ => ⟨S2048x256, .f32⟩
  | .local _ .vmem, ⟨10, _⟩ => ⟨S1024x1, .f32⟩
  | .local _ .vmem, ⟨11, _⟩ => ⟨S1024x1, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x2048, .f32⟩
  | .local _ .vmem, ⟨16, _⟩ => ⟨S1024x2048, .f32⟩
  | .local _ .vmem, ⟨17, _⟩ => ⟨S2048x256, .f32⟩
  | .local _ .vmem, ⟨18, _⟩ => ⟨S2048x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S8192_S8192x1 : S8192.ShapeCasts S8192x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  dot_S2048x256_S256x256_S2048x256_1_0_0_1_n_n_wf : DotDims.WF S2048x256 S256x256 S2048x256 [1] [0] [0] [1] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .f32 = 32 ∨ (Rect.block (s := S8192x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .f32 = 32 ∨ (Rect.block (s := S8192x256) S1024x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .f32 = 32 ∨ (Rect.block (s := S8192x8192) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S8192x256.size a
  hwx2_1 : ∀ i : grid2.Coords, EltTy.bits .f32 = 32 ∨ (Rect.block (s := S8192x256) S2048x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S8192x256.size a
  hwx2_2 : ∀ i : grid2.Coords, EltTy.bits .f32 = 32 ∨ (Rect.block (s := S8192x256) S1024x256.size (cc2_transform_2 i) (hinb2_2 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg2) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S8192 : Shape := ⟨1, ![8192]⟩
abbrev S8192x1 : Shape := ⟨2, ![8192, 1]⟩

abbrev nBuf : Space → Nat
  | .hbm => 11
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192x8192, .f32⟩
  | .hbm, ⟨3, _⟩ => ⟨S256x256, .f32⟩
  | .hbm, ⟨4, _⟩ => ⟨S8192, .f32⟩
  | .hbm, ⟨5, _⟩ => ⟨S8192x256, .f32⟩
  | .hbm, ⟨6, _⟩ => ⟨S8192x256, .f32⟩
  | .hbm, ⟨7, _⟩ => ⟨S8192x1, .f32⟩
  | .hbm, ⟨8, _⟩ => ⟨S8192x256, .f32⟩
  | .hbm, ⟨9, _⟩ => ⟨S8192x256, .f32⟩
  | .hbm, ⟨10, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KernelIdeal.R0Defs.lean ====
import proofs.«124954_j13383118094872_1_alg».proof.Proof.Gen.KernelIdeal.Launch
import proofs.«124954_j13383118094872_1_alg».proof.Proof.Gen.KernelIdeal.Skeleton
import proofs.«124954_j13383118094872_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

/-! # The first kernel: blocks of 2048 rows of the features times the whole weight

The grid is 4 row blocks by one stretch: every point is at once the first and the last stretch of its row block, so
the scratch block is reset, receives the product, and is copied into the output window at every point. -/

/-! ## The body's two conditions over the grid -/

/-- "This is the first stretch": the reset of the scratch block is taken. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) :=
  (by decide +kernel : ∀ t : Fin grid0.N, cond0_0 (grid0.coords t))

/-- "This is the last stretch": the finished block is stored into the output window. -/
abbrev cond0_1 (i : grid0.Coords) : Prop := k0_cond2 i = 1#1
theorem hcond0_1 : ∀ t : Fin cfg0.N, cond0_1 (grid0.coords t) :=
  (by decide +kernel : ∀ t : Fin grid0.N, cond0_1 (grid0.coords t))

/-! ## No window is ever idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-! ## The staging memrefs at a point -/

abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .f32 := win0_2.stage (cfg0.slots t 2)
abbrev hs0_2 (t : Fin cfg0.N) : (ms0_2 t).IsWhole := hstage0_2 ((cfg0.slots t 2).cast nbuf0_2)
/-- The scratch block. -/
abbrev scM0 : Memref sig .tc .vmem S2048x256 .f32 := Memref.whole cc0_scratch0

/-- The scoped buffers of the other kernels, which this one never touches: carried unopened. -/
abbrev others0 (c : Dev nD) : sProp 𝕄 :=
  Pipeline.scopedRestBut (Ix := Unit) (Name := ℕ) (U := UR sig nD τ) (Lvl := ℕ) (Val := Elt F) spec0 c [cc0_scratch0]

/-- The region's invariant as the launch hands it over: the scratch block at some contents, the other scoped buffers
    carried unopened, the generator register at some state. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA
  rw [Pipeline.scopedRest_split_of_list spec0 c [cc0_scratch0] (by decide) (by decide)]
  simp only [scM0, owns_whole, bigSepL]
  try rfl

end

/-! ## The blocks the windows show, and what the body leaves -/

section
-- the buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 2048 by 256 block of the features at point t: the rows of block t. -/
abbrev blkA0 (c : Dev nD) (t : Fin cfg0.N) : Vec F S2048x256 .f32 := iblk0 V c 0 t
/-- The whole 256 by 256 weight. -/
abbrev blkB0 (c : Dev nD) (t : Fin cfg0.N) : Vec F S256x256 .f32 := iblk0 V c 1 t

/-- What the scratch block holds after the body at point t: zero plus the one product. -/
def acc0 (c : Dev nD) (t : Fin cfg0.N) : Vec F S2048x256 .f32 :=
  k0_pay2 (blkA0 V c t) (blkB0 V c t) (k0_pay1 (F := F))

/-- The region's invariant before point n: at the start what the launch hands over; afterwards the scratch block at the
    product the point before left, the other kernels' buffers unopened, the generator register at some state. -/
def PhiS0 (c : Dev nD) : (n : ℕ) → n ≤ cfg0.N → sProp 𝕄
  | 0, _ => Pipeline.ΦA spec0 c
  | n + 1, hn => iprop((owns (c : Thread nD τ) scM0 fullShare (acc0 V c ⟨n, hn⟩) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (acc0 V c ⟨n, hn⟩) ∗ others0 c) ∗ (∃ r, prngReg c r)) := rfl

theorem PhiS0_pos (c : Dev nD) (n : ℕ) (h : n ≤ cfg0.N) (hz : n ≠ 0) :
    PhiS0 V c n h = iprop((owns (c : Thread nD τ) scM0 fullShare (acc0 V c ⟨n - 1, by omega⟩) ∗ others0 c) ∗ (∃ r, prngReg c r)) := by
  cases n with
  | zero => exact absurd rfl hz
  | succ n => rfl

/-- The proof data of this pipeline on core c: the arrays as the region finds them; after the body each input window at
    its block and the output window at the product; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t := by dsimp only [dat0]

/-- Each input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

end

end Cert.KernelIdeal.Hand

end
-- ==== Proof.KernelIdeal.R0Runs.lean ====
import proofs.«124954_j13383118094872_1_alg».proof.Proof.Gen.KernelIdeal.Launch
import proofs.«124954_j13383118094872_1_alg».proof.Proof.Gen.KernelIdeal.Skeleton
import proofs.«124954_j13383118094872_1_alg».proof.Proof.Gen.KernelIdeal.Points
import proofs.«124954_j13383118094872_1_alg».proof.Proof.KernelIdeal.R0Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first kernel's body, run once

Every point is both the first and the last stretch, so the body is one straight-line program: reset the scratch block, add
the product, copy the block into the output window. It is run on any whole memrefs and any contents; the stores it leaves
are found by the run, and read back below. -/

theorem hz0 : (![0, 0] : Fin 2 → Nat) = fun _ => 0 := by
  funext a; match a with | ⟨0, _⟩ => rfl | ⟨1, _⟩ => rfl

set_option maxHeartbeats 1000000 in
noncomputable def kernelRun0 (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S2048x256 .f32) (harg4 : arg4.IsWhole) (arg5 : Memref sig .tc .vmem S2048x256 .f32) (harg5 : arg5.IsWhole) (hc0 : cond0_0 i) (hc1 : cond0_1 i)
    (x0 : Vec F S2048x256 .f32) (x1 : Vec F S256x256 .f32) (xs : Vec F S2048x256 .f32) :
    Σ' (LO : List (View.Piece (Elt F) S2048x256 .f32)), { LS : List (View.Piece (Elt F) S2048x256 .f32) //
      ∀ (xi : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__matmul_kernel i arg2 harg2 arg3 harg3 arg4 harg4 arg5 harg5) K } := by
  refine ⟨?_, ?_, fun xi E K => ?run⟩
  case run =>
    simp only [cc0__matmul_kernel_eq_skeleton]; unfold cc0__matmul_kernel_skel
    unfold owns
    iintro ⟨⟨%f0, %hf0, H0⟩, ⟨%f1, %hf1, H1⟩, ⟨%f3, %hf3, H3⟩, ⟨%fs, %hfs, HS⟩, Hk⟩
    obtain rfl := harg2.eq_unread hf0; obtain rfl := harg3.eq_unread hf1; obtain rfl := harg4.eq_unread hf3; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; iexact H3
    iexists _; iexact HS

theorem scover0 (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S2048x256 .f32) (harg4 : arg4.IsWhole) (arg5 : Memref sig .tc .vmem S2048x256 .f32) (harg5 : arg5.IsWhole) (hc0 : cond0_0 i) (hc1 : cond0_1 i)
    (x0 : Vec F S2048x256 .f32) (x1 : Vec F S256x256 .f32) (xs : Vec F S2048x256 .f32) (y : S2048x256.Idx) :
    ∃ pc ∈ (kernelRun0 c i arg2 harg2 arg3 harg3 arg4 harg4 arg5 harg5 hc0 hc1 x0 x1 xs).2.1, y ∈ pc.1.set :=
  View.cover_of_tiledL (kernelRun0 c i arg2 harg2 arg3 harg3 arg4 harg4 arg5 harg5 hc0 hc1 x0 x1 xs).2.1 S2048x256.size (by sl_kernel_rfl) y

theorem ocover0 (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S2048x256 .f32) (harg4 : arg4.IsWhole) (arg5 : Memref sig .tc .vmem S2048x256 .f32) (harg5 : arg5.IsWhole) (hc0 : cond0_0 i) (hc1 : cond0_1 i)
    (x0 : Vec F S2048x256 .f32) (x1 : Vec F S256x256 .f32) (xs : Vec F S2048x256 .f32) (y : S2048x256.Idx) :
    ∃ pc ∈ (kernelRun0 c i arg2 harg2 arg3 harg3 arg4 harg4 arg5 harg5 hc0 hc1 x0 x1 xs).1, y ∈ pc.1.set :=
  View.cover_of_tiledL (kernelRun0 c i arg2 harg2 arg3 harg3 arg4 harg4 arg5 harg5 hc0 hc1 x0 x1 xs).1 S2048x256.size (by sl_kernel_rfl) y

theorem sread0 (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S2048x256 .f32) (harg4 : arg4.IsWhole) (arg5 : Memref sig .tc .vmem S2048x256 .f32) (harg5 : arg5.IsWhole) (hc0 : cond0_0 i) (hc1 : cond0_1 i)
    (x0 : Vec F S2048x256 .f32) (x1 : Vec F S256x256 .f32) (xs : Vec F S2048x256 .f32)
    (v : View sig .tc .vmem S2048x256 .f32) (f : v.ty.Contents (Elt F)) :
    v.read (Elt F) (v.writes (Elt F) f (kernelRun0 c i arg2 harg2 arg3 harg3 arg4 harg4 arg5 harg5 hc0 hc1 x0 x1 xs).2.1) = k0_pay2 x0 x1 (k0_pay1 (F := F)) := by
  rw [View.read_writes_eq_canon _ _ _ (scover0 c i arg2 harg2 arg3 harg3 arg4 harg4 arg5 harg5 hc0 hc1 x0 x1 xs)]
  unfold kernelRun0
  dsimp only
  sl_unfold_words
  rw [View.canon_cons_unit_zero (S := S2048x256) hz0]
  simp only [View.readAt_eq_ld, harg2.read_unread, harg3.read_unread, View.ld_unit_zero (S := S2048x256) hz0, View.ld_unit_zero (S := S256x256) hz0, View.readCov_unit_zero (S := S2048x256) _ hz0]

theorem oread0 (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S2048x256 .f32) (harg4 : arg4.IsWhole) (arg5 : Memref sig .tc .vmem S2048x256 .f32) (harg5 : arg5.IsWhole) (hc0 : cond0_0 i) (hc1 : cond0_1 i)
    (x0 : Vec F S2048x256 .f32) (x1 : Vec F S256x256 .f32) (xs : Vec F S2048x256 .f32)
    (v : View sig .tc .vmem S2048x256 .f32) (f : v.ty.Contents (Elt F)) :
    v.read (Elt F) (v.writes (Elt F) f (kernelRun0 c i arg2 harg2 arg3 harg3 arg4 harg4 arg5 harg5 hc0 hc1 x0 x1 xs).1) = k0_pay2 x0 x1 (k0_pay1 (F := F)) := by
  rw [View.read_writes_eq_canon _ _ _ (ocover0 c i arg2 harg2 arg3 harg3 arg4 harg4 arg5 harg5 hc0 hc1 x0 x1 xs)]
  unfold kernelRun0
  dsimp only
  sl_unfold_words
  rw [View.canon_unit_zero (S := S2048x256) hz0]
  simp only [View.readAt_eq_ld, harg2.read_unread, harg3.read_unread, View.ld_unit_zero (S := S2048x256) hz0, View.ld_unit_zero (S := S256x256) hz0, View.readCov_unit_zero (S := S2048x256) _ hz0, View.readCov_cons_toLoadRect]

end Cert.KernelIdeal.Hand

end
-- ==== Proof.KernelIdeal.R0Body.lean ====
import proofs.«124954_j13383118094872_1_alg».proof.Proof.Gen.KernelIdeal.Launch
import proofs.«124954_j13383118094872_1_alg».proof.Proof.Gen.KernelIdeal.Skeleton
import proofs.«124954_j13383118094872_1_alg».proof.Proof.Gen.KernelIdeal.Points
import proofs.«124954_j13383118094872_1_alg».proof.Proof.KernelIdeal.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first kernel's body obligation

At every point the body, called with the windows' current staging buffers at their blocks and the invariant, runs to the
invariant at the next point and the buffers at what the proof data say: the one run, whose stores leave the product both
in the scratch block and in the output window. -/

section
variable (V : (c : Dev nD) → (b : Ref sig .tc) → Buf (Elt F) ((c : Thread nD τ).loc b))

/-- What the body is called with at point t. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (ms0_2 t) fullShare (acc0 V c t) := by
  unfold Dat.leavesExact; rw [liveAt0_2 t, after0_2]

/-- Before any point the invariant holds the scratch block at SOME contents (named or not), beside the rest. -/
theorem PhiS0_some (c : Dev nD) (t : Fin cfg0.N) :
    (dat0 V c).Φ t.castSucc ⊢ (iprop(((∃ d, owns (c : Thread nD τ) scM0 fullShare d) ∗ others0 c) ∗ (∃ r, prngReg c r)) : sProp 𝕄) := by
  rw [PhiS0_castSucc]
  by_cases hz : t.val = 0
  · rw [PhiS0_zero V c _ _ hz, PhiA0_eq]
  · rw [PhiS0_pos V c _ _ hz]
    iintro ⟨⟨HS, Hoth⟩, Hg⟩
    isplitr [Hg]
    · isplitl [HS]
      · iexists _; iexact HS
      iexact Hoth
    iexact Hg

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hc0 : cond0_0 (grid0.coords t) := hcond0_0 t
  have hc1 : cond0_1 (grid0.coords t) := hcond0_1 t
  unfold acc0
  iintro ⟨HΦ, Ho, ⟨%d0, H0⟩, ⟨%d1, H1⟩, ⟨%d3, H3⟩⟩
  ihave HΦ' := (PhiS0_some V c t) $$ HΦ
  icases HΦ' with ⟨⟨⟨%ds, HS⟩, Hoth⟩, Hg⟩
  iapply ((kernelRun0 c (grid0.coords t) (ms0_0 t) (hs0_0 t) (ms0_1 t) (hs0_1 t) (ms0_2 t) (hs0_2 t) scM0 (Memref.isWhole_whole _) hc0 hc1 (blkA0 V c t) (blkB0 V c t) ds).2.2 ((dat0 V c).before 2 t d3) Set.univ _)
  isplitl [H0]; · iexact H0
  isplitl [H1]; · iexact H1
  isplitl [H3]; · iexact H3
  isplitl [HS]; · iexact HS
  iintro ⟨H0, H1, ⟨%eo, H3⟩, ⟨%es, HS⟩⟩
  isplitl [HS Hoth Hg]
  · isplitr [Hg]
    · isplitl [HS]
      · unfold owns; iexists _; isplitr
        swap; · iexact HS
        ipureintro; exact sread0 c _ _ _ _ _ _ _ _ _ hc0 hc1 _ _ _ _ _
      iexact Hoth
    iexact Hg
  isplitl [Ho]; · iexact Ho
  isplitl [H0]; · iexact H0
  isplitl [H1]; · iexact H1
  unfold owns; iexists _; isplitr
  swap; · iexact H3
  ipureintro; exact oread0 c _ _ _ _ _ _ _ _ _ hc0 hc1 _ _ _ _ _

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives it back: the scratch block's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 4 := N_0; omega), PhiA0_eq]
  iintro ⟨⟨HS, Hoth⟩, Hg⟩
  isplitr [Hg]
  · isplitl [HS]
    · iexists _; iexact HS
    iexact Hoth
  iexact Hg

end

end Cert.KernelIdeal.Hand

end
-- ==== Proof.KernelIdeal.R1Defs.lean ====
import proofs.«124954_j13383118094872_1_alg».proof.Proof.Gen.KernelIdeal.Launch
import proofs.«124954_j13383118094872_1_alg».proof.Proof.Gen.KernelIdeal.Skeleton
import proofs.«124954_j13383118094872_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
/-! # The second kernel: blocks of 1024 rows, the contraction in four stretches of 2048

The grid is 8 row blocks by 4 stretches; point t = 4·i + k is row block i, stretch k. A scratch block carries the
running product between the points of one row block. -/

/-! ## The body's two conditions over the grid -/

/-- "This is the first stretch": the reset of the scratch block is taken. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last stretch": the scaled block is stored into the output window. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The staging memrefs at a point -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
/-- The scratch block. -/
abbrev scM1 : Memref sig .tc .vmem S1024x256 .f32 := Memref.whole cc1_scratch0
abbrev VS1 : View sig .tc .vmem S1024x256 .f32 := scM1.view
abbrev VO1 : View sig .tc .vmem S1024x256 .f32 := (Memref.whole cc1_stg3_0 : Memref sig .tc .vmem S1024x256 .f32).view

/-- The scoped buffers of the other kernels, which this one never touches: carried unopened. -/
abbrev others1 (c : Dev nD) : sProp 𝕄 :=
  Pipeline.scopedRestBut (Ix := Unit) (Name := ℕ) (U := UR sig nD τ) (Lvl := ℕ) (Val := Elt F) spec1 c [cc1_scratch0]

/-- The region's invariant as the launch hands it over: the scratch block at some contents, the other scoped buffers
    carried unopened, the generator register at some state. -/
theorem PhiA1_eq (c : Dev nD) :
    (Pipeline.ΦA spec1 c : sProp 𝕄)
      = iprop(((∃ d, owns (c : Thread nD τ) scM1 fullShare d) ∗ others1 c) ∗ (∃ r, prngReg c r)) := by
  unfold Pipeline.ΦA
  rw [Pipeline.scopedRest_split_of_list spec1 c [cc1_scratch0] (by decide) (by decide)]
  simp only [scM1, owns_whole, bigSepL]
  try rfl

end

/-! ## The blocks the windows show, and what the body leaves -/

section
-- the buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 1024 by 2048 block of the left matrix at point t: rows of block i, columns of stretch k. -/
abbrev blkA1 (c : Dev nD) (t : Fin cfg1.N) : Vec F S1024x2048 .f32 := iblk1 V c 0 t
/-- The 2048 by 256 block of the right matrix at point t: rows of stretch k. -/
abbrev blkB1 (c : Dev nD) (t : Fin cfg1.N) : Vec F S2048x256 .f32 := iblk1 V c 1 t
/-- The 1024 filter factors of row block i, as a column. -/
abbrev blkS1 (c : Dev nD) (t : Fin cfg1.N) : Vec F S1024x1 .f32 := iblk1 V c 2 t

/-- THE RUNNING PRODUCT. What the scratch block holds after the body at point n: the block before — zero at the first
    stretch of a row block — plus this stretch's product. -/
def acc1 (c : Dev nD) : (n : ℕ) → n < cfg1.N → Vec F S1024x256 .f32
  | 0, hn => k1_pay2 (blkA1 V c ⟨0, hn⟩) (blkB1 V c ⟨0, hn⟩) (k1_pay1 (F := F))
  | n + 1, hn =>
    if (n + 1) % 4 = 0 then k1_pay2 (blkA1 V c ⟨n + 1, hn⟩) (blkB1 V c ⟨n + 1, hn⟩) (k1_pay1 (F := F))
    else k1_pay2 (blkA1 V c ⟨n + 1, hn⟩) (blkB1 V c ⟨n + 1, hn⟩) (acc1 c n (Nat.lt_of_succ_lt hn))

/-- At the first stretch of a row block the running product restarts from zero. -/
theorem acc1_first (c : Dev nD) (t : Fin cfg1.N) (h : t.val % 4 = 0) :
    acc1 V c t.val t.isLt = k1_pay2 (blkA1 V c t) (blkB1 V c t) (k1_pay1 (F := F)) := by
  obtain ⟨n, hn⟩ := t
  cases n with
  | zero => rfl
  | succ n => exact if_pos h

/-- At a later stretch it continues from what the point before left. -/
theorem acc1_next (c : Dev nD) (t : Fin cfg1.N) (h : ¬t.val % 4 = 0) :
    acc1 V c t.val t.isLt = k1_pay2 (blkA1 V c t) (blkB1 V c t) (acc1 V c (t.val - 1) (Nat.lt_of_le_of_lt (Nat.sub_le _ _) t.isLt)) := by
  obtain ⟨n, hn⟩ := t
  cases n with
  | zero => exact absurd (Nat.zero_mod _) h
  | succ n => exact if_neg h

/-- What the last stretch stores into the output window: the finished block, its rows scaled by the filter. -/
def out1 (c : Dev nD) (t : Fin cfg1.N) : Vec F S1024x256 .f32 :=
  k1_pay3 (acc1 V c t.val t.isLt) (blkS1 V c t)

/-- The region's invariant before point n: at the start what the launch hands over; afterwards the scratch block at the
    running product the point before left, the other kernels' buffers unopened, the generator register at some state. -/
def PhiS1 (c : Dev nD) : (n : ℕ) → n ≤ cfg1.N → sProp 𝕄
  | 0, _ => Pipeline.ΦA spec1 c
  | n + 1, hn => iprop((owns (c : Thread nD τ) scM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn) ∗ others1 c) ∗ (∃ r, prngReg c r)) := rfl

theorem PhiS1_pos (c : Dev nD) (n : ℕ) (h : n ≤ cfg1.N) (hz : n ≠ 0) :
    PhiS1 V c n h = iprop((owns (c : Thread nD τ) scM1 fullShare (acc1 V c (n - 1) (by omega)) ∗ others1 c) ∗ (∃ r, prngReg c r)) := by
  cases n with
  | zero => exact absurd rfl hz
  | succ n => rfl

/-- The proof data of this pipeline on core c: the arrays as the region finds them; after the body each input window at
    its block and the output window at the scaled finished block (consulted only at a last stretch); the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

/-- Each input window's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

end

end Cert.KernelIdeal.Hand

end
-- ==== Proof.KernelIdeal.R1Runs.lean ====
import proofs.«124954_j13383118094872_1_alg».proof.Proof.Gen.KernelIdeal.Launch
import proofs.«124954_j13383118094872_1_alg».proof.Proof.Gen.KernelIdeal.Skeleton
import proofs.«124954_j13383118094872_1_alg».proof.Proof.Gen.KernelIdeal.Points
import proofs.«124954_j13383118094872_1_alg».proof.Proof.KernelIdeal.R1Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second kernel's body, run case by case

At each point the body is one of three straight-line programs, by the two conditions on the stretch number. Each is run
once, on any whole memrefs and any contents; the stores it leaves are found by the run, and read back below. -/

theorem hz2 : (![0, 0] : Fin 2 → Nat) = fun _ => 0 := by
  funext a; match a with | ⟨0, _⟩ => rfl | ⟨1, _⟩ => rfl

set_option maxHeartbeats 1000000 in
/-- The first stretch of a row block: the scratch block is reset, then receives the first product; the output window is
    left as found. -/
noncomputable def kernelRun1_A (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x2048 .f32) (x1 : Vec F S2048x256 .f32) (x2 : Vec F S1024x1 .f32) (xs : Vec F S1024x256 .f32) :
    { LS : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__matmul_scale_kernel i arg2 harg2 arg3 harg3 arg4 harg4 arg5 harg5 arg6 harg6) K } := by
  refine ⟨?_, fun xi E K => ?run⟩
  case run =>
    simp only [cc1__matmul_scale_kernel_eq_skeleton]; unfold cc1__matmul_scale_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- A middle stretch: the product is added to the scratch block; the output window is left as found. -/
noncomputable def kernelRun1_B (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x2048 .f32) (x1 : Vec F S2048x256 .f32) (x2 : Vec F S1024x1 .f32) (xs : Vec F S1024x256 .f32) :
    { LS : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__matmul_scale_kernel i arg2 harg2 arg3 harg3 arg4 harg4 arg5 harg5 arg6 harg6) K } := by
  refine ⟨?_, fun xi E K => ?run⟩
  case run =>
    simp only [cc1__matmul_scale_kernel_eq_skeleton]; unfold cc1__matmul_scale_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- The last stretch: the product is added to the scratch block, and the block, its rows scaled by the filter column,
    is stored into the output window. -/
noncomputable def kernelRun1_C (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x2048 .f32) (x1 : Vec F S2048x256 .f32) (x2 : Vec F S1024x1 .f32) (xs : Vec F S1024x256 .f32) :
    Σ' (LO : List (View.Piece (Elt F) S1024x256 .f32)), { LS : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__matmul_scale_kernel i arg2 harg2 arg3 harg3 arg4 harg4 arg5 harg5 arg6 harg6) K } := by
  refine ⟨?_, ?_, fun xi E K => ?run⟩
  case run =>
    simp only [cc1__matmul_scale_kernel_eq_skeleton]; unfold cc1__matmul_scale_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

theorem scover1_A (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x2048 .f32) (x1 : Vec F S2048x256 .f32) (x2 : Vec F S1024x1 .f32) (xs : Vec F S1024x256 .f32) (y : S1024x256.Idx) :
    ∃ pc ∈ (kernelRun1_A c i arg2 harg2 arg3 harg3 arg4 harg4 arg5 harg5 arg6 harg6 hc0 hc1 x0 x1 x2 xs).1, y ∈ pc.1.set :=
  View.cover_of_tiledL (kernelRun1_A c i arg2 harg2 arg3 harg3 arg4 harg4 arg5 harg5 arg6 harg6 hc0 hc1 x0 x1 x2 xs).1 S1024x256.size (by sl_kernel_rfl) y

theorem scover1_B (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x2048 .f32) (x1 : Vec F S2048x256 .f32) (x2 : Vec F S1024x1 .f32) (xs : Vec F S1024x256 .f32) (y : S1024x256.Idx) :
    ∃ pc ∈ (kernelRun1_B c i arg2 harg2 arg3 harg3 arg4 harg4 arg5 harg5 arg6 harg6 hc0 hc1 x0 x1 x2 xs).1, y ∈ pc.1.set :=
  View.cover_of_tiledL (kernelRun1_B c i arg2 harg2 arg3 harg3 arg4 harg4 arg5 harg5 arg6 harg6 hc0 hc1 x0 x1 x2 xs).1 S1024x256.size (by sl_kernel_rfl) y

theorem scover1_C (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x2048 .f32) (x1 : Vec F S2048x256 .f32) (x2 : Vec F S1024x1 .f32) (xs : Vec F S1024x256 .f32) (y : S1024x256.Idx) :
    ∃ pc ∈ (kernelRun1_C c i arg2 harg2 arg3 harg3 arg4 harg4 arg5 harg5 arg6 harg6 hc0 hc1 x0 x1 x2 xs).2.1, y ∈ pc.1.set :=
  View.cover_of_tiledL (kernelRun1_C c i arg2 harg2 arg3 harg3 arg4 harg4 arg5 harg5 arg6 harg6 hc0 hc1 x0 x1 x2 xs).2.1 S1024x256.size (by sl_kernel_rfl) y

theorem ocover1_C (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x2048 .f32) (x1 : Vec F S2048x256 .f32) (x2 : Vec F S1024x1 .f32) (xs : Vec F S1024x256 .f32) (y : S1024x256.Idx) :
    ∃ pc ∈ (kernelRun1_C c i arg2 harg2 arg3 harg3 arg4 harg4 arg5 harg5 arg6 harg6 hc0 hc1 x0 x1 x2 xs).1, y ∈ pc.1.set :=
  View.cover_of_tiledL (kernelRun1_C c i arg2 harg2 arg3 harg3 arg4 harg4 arg5 harg5 arg6 harg6 hc0 hc1 x0 x1 x2 xs).1 S1024x256.size (by sl_kernel_rfl) y

theorem sread1_A (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x2048 .f32) (x1 : Vec F S2048x256 .f32) (x2 : Vec F S1024x1 .f32) (xs : Vec F S1024x256 .f32)
    (v : View sig .tc .vmem S1024x256 .f32) (f : v.ty.Contents (Elt F)) :
    v.read (Elt F) (v.writes (Elt F) f (kernelRun1_A c i arg2 harg2 arg3 harg3 arg4 harg4 arg5 harg5 arg6 harg6 hc0 hc1 x0 x1 x2 xs).1) = k1_pay2 x0 x1 (k1_pay1 (F := F)) := by
  rw [View.read_writes_eq_canon _ _ _ (scover1_A c i arg2 harg2 arg3 harg3 arg4 harg4 arg5 harg5 arg6 harg6 hc0 hc1 x0 x1 x2 xs)]
  unfold kernelRun1_A
  dsimp only
  sl_unfold_words
  rw [View.canon_cons_unit_zero (S := S1024x256) hz2]
  simp only [View.readAt_eq_ld, harg2.read_unread, harg3.read_unread, View.ld_unit_zero (S := S1024x2048) hz2, View.ld_unit_zero (S := S2048x256) hz2, View.ld_unit_zero (S := S1024x256) hz2, View.ld_unit_zero (S := S1024x1) hz2, View.readCov_unit_zero (S := S1024x256) _ hz2]

theorem sread1_B (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x2048 .f32) (x1 : Vec F S2048x256 .f32) (x2 : Vec F S1024x1 .f32) (xs : Vec F S1024x256 .f32)
    (v : View sig .tc .vmem S1024x256 .f32) (f : v.ty.Contents (Elt F)) :
    v.read (Elt F) (v.writes (Elt F) f (kernelRun1_B c i arg2 harg2 arg3 harg3 arg4 harg4 arg5 harg5 arg6 harg6 hc0 hc1 x0 x1 x2 xs).1) = k1_pay2 x0 x1 xs := by
  rw [View.read_writes_eq_canon _ _ _ (scover1_B c i arg2 harg2 arg3 harg3 arg4 harg4 arg5 harg5 arg6 harg6 hc0 hc1 x0 x1 x2 xs)]
  unfold kernelRun1_B
  dsimp only
  sl_unfold_words
  rw [View.canon_unit_zero (S := S1024x256) hz2]
  simp only [View.readAt_eq_ld, harg2.read_unread, harg3.read_unread, harg6.read_unread, View.ld_unit_zero (S := S1024x2048) hz2, View.ld_unit_zero (S := S2048x256) hz2, View.ld_unit_zero (S := S1024x256) hz2, View.ld_unit_zero (S := S1024x1) hz2]

theorem sread1_C (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x2048 .f32) (x1 : Vec F S2048x256 .f32) (x2 : Vec F S1024x1 .f32) (xs : Vec F S1024x256 .f32)
    (v : View sig .tc .vmem S1024x256 .f32) (f : v.ty.Contents (Elt F)) :
    v.read (Elt F) (v.writes (Elt F) f (kernelRun1_C c i arg2 harg2 arg3 harg3 arg4 harg4 arg5 harg5 arg6 harg6 hc0 hc1 x0 x1 x2 xs).2.1) = k1_pay2 x0 x1 xs := by
  rw [View.read_writes_eq_canon _ _ _ (scover1_C c i arg2 harg2 arg3 harg3 arg4 harg4 arg5 harg5 arg6 harg6 hc0 hc1 x0 x1 x2 xs)]
  unfold kernelRun1_C
  dsimp only
  sl_unfold_words
  rw [View.canon_unit_zero (S := S1024x256) hz2]
  simp only [View.readAt_eq_ld, harg2.read_unread, harg3.read_unread, harg6.read_unread, View.ld_unit_zero (S := S1024x2048) hz2, View.ld_unit_zero (S := S2048x256) hz2, View.ld_unit_zero (S := S1024x256) hz2, View.ld_unit_zero (S := S1024x1) hz2]

theorem oread1_C (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x2048 .f32) (x1 : Vec F S2048x256 .f32) (x2 : Vec F S1024x1 .f32) (xs : Vec F S1024x256 .f32)
    (v : View sig .tc .vmem S1024x256 .f32) (f : v.ty.Contents (Elt F)) :
    v.read (Elt F) (v.writes (Elt F) f (kernelRun1_C c i arg2 harg2 arg3 harg3 arg4 harg4 arg5 harg5 arg6 harg6 hc0 hc1 x0 x1 x2 xs).1) = k1_pay3 (k1_pay2 x0 x1 xs) x2 := by
  rw [View.read_writes_eq_canon _ _ _ (ocover1_C c i arg2 harg2 arg3 harg3 arg4 harg4 arg5 harg5 arg6 harg6 hc0 hc1 x0 x1 x2 xs)]
  unfold kernelRun1_C
  dsimp only
  sl_unfold_words
  rw [View.canon_unit_zero (S := S1024x256) hz2]
  simp only [View.readAt_eq_ld, harg2.read_unread, harg3.read_unread, harg4.read_unread, harg6.read_unread, View.ld_unit_zero (S := S1024x2048) hz2, View.ld_unit_zero (S := S2048x256) hz2, View.ld_unit_zero (S := S1024x256) hz2, View.ld_unit_zero (S := S1024x1) hz2, View.readCov_unit_zero (S := S1024x256) _ hz2]

end Cert.KernelIdeal.Hand

end
-- ==== Proof.KernelIdeal.R1Body.lean ====
import proofs.«124954_j13383118094872_1_alg».proof.Proof.Gen.KernelIdeal.Launch
import proofs.«124954_j13383118094872_1_alg».proof.Proof.Gen.KernelIdeal.Skeleton
import proofs.«124954_j13383118094872_1_alg».proof.Proof.Gen.KernelIdeal.Points
import proofs.«124954_j13383118094872_1_alg».proof.Proof.KernelIdeal.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second kernel's body obligation

At every point the body, called with the windows' current staging buffers at their blocks and the invariant, runs to the
invariant at the next point and the buffers at what the proof data say: by the point's stretch number it is one of the
three runs, and what each run's stores leave is the running product (and, at a last stretch, the scaled block). -/

section
variable (V : (c : Dev nD) → (b : Ref sig .tc) → Buf (Elt F) ((c : Thread nD τ).loc b))

/-- What the body is called with at point t. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3_idle (c : Dev nD) (t : Fin cfg1.N) (h : ¬cond1_1 (grid1.coords t)) :
    (dat1 V c).leavesExact 3 t = iprop(∃ d, owns (c : Thread nD τ) (ms1_3 t) fullShare ((dat1 V c).before 3 t d)) :=
  Dat.leavesExact_idle (dat1 V c) 3 t (idleAt1_3 t h) (noFlush1_3 t h)
theorem leaves1_3_live (c : Dev nD) (t : Fin cfg1.N) (h : cond1_1 (grid1.coords t)) :
    (dat1 V c).leavesExact 3 t = owns (c : Thread nD τ) (ms1_3 t) fullShare (out1 V c t) := by
  unfold Dat.leavesExact; rw [liveAt1_3 t h, after1_3]

/-- Before any point the invariant holds the scratch block at SOME contents (named or not), beside the rest. -/
theorem PhiS1_some (c : Dev nD) (t : Fin cfg1.N) :
    (dat1 V c).Φ t.castSucc ⊢ (iprop(((∃ d, owns (c : Thread nD τ) scM1 fullShare d) ∗ others1 c) ∗ (∃ r, prngReg c r)) : sProp 𝕄) := by
  rw [PhiS1_castSucc]
  by_cases hz : t.val = 0
  · rw [PhiS1_zero V c _ _ hz, PhiA1_eq]
  · rw [PhiS1_pos V c _ _ hz]
    iintro ⟨⟨HS, Hoth⟩, Hg⟩
    isplitr [Hg]
    · isplitl [HS]
      · iexists _; iexact HS
      iexact Hoth
    iexact Hg

/-- Before a point that is not the first of its row block the scratch block holds the running product the point before left. -/
theorem PhiS1_named (c : Dev nD) (t : Fin cfg1.N) (h0 : ¬t.val % 4 = 0) :
    (dat1 V c).Φ t.castSucc = iprop((owns (c : Thread nD τ) scM1 fullShare (acc1 V c (t.val - 1) (Nat.lt_of_le_of_lt (Nat.sub_le _ _) t.isLt)) ∗ others1 c) ∗ (∃ r, prngReg c r)) := by
  rw [PhiS1_castSucc, PhiS1_pos V c _ _ (fun hz => h0 (by rw [hz]))]

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  by_cases h0 : t.val % 4 = 0
  · -- the first stretch of a row block
    have h1 : ¬t.val % 4 = 3 := by omega
    have hc0 : cond1_0 (grid1.coords t) := (hcond1_0 t).mpr h0
    have hc1 : ¬cond1_1 (grid1.coords t) := fun h => h1 ((hcond1_1 t).mp h)
    rw [leaves1_3_idle V c t hc1, acc1_first V c t h0]
    iintro ⟨HΦ, Ho, ⟨%d0, H0⟩, ⟨%d1, H1⟩, ⟨%d2, H2⟩, ⟨%d3, H3⟩⟩
    ihave HΦ' := (PhiS1_some V c t) $$ HΦ
    icases HΦ' with ⟨⟨⟨%ds, HS⟩, Hoth⟩, Hg⟩
    iapply ((kernelRun1_A c (grid1.coords t) (ms1_0 t) (hs1_0 t) (ms1_1 t) (hs1_1 t) (ms1_2 t) (hs1_2 t) (ms1_3 t) (hs1_3 t) scM1 (Memref.isWhole_whole _) hc0 hc1 (blkA1 V c t) (blkB1 V c t) (blkS1 V c t) ds).2 ((dat1 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hoth Hg]
    · isplitr [Hg]
      · isplitl [HS]
        · unfold owns; iexists _; isplitr
          swap; · iexact HS
          ipureintro; exact sread1_A c _ _ _ _ _ _ _ _ _ _ _ hc0 hc1 _ _ _ _ _ _
        iexact Hoth
      iexact Hg
    isplitl [Ho]; · iexact Ho
    isplitl [H0]; · iexact H0
    isplitl [H1]; · iexact H1
    isplitl [H2]; · iexact H2
    iexists _; iexact H3
  · by_cases h1 : t.val % 4 = 3
    · -- the last stretch
      have hc0 : ¬cond1_0 (grid1.coords t) := fun h => h0 ((hcond1_0 t).mp h)
      have hc1 : cond1_1 (grid1.coords t) := (hcond1_1 t).mpr h1
      rw [leaves1_3_live V c t hc1, PhiS1_named V c t h0]
      unfold out1
      rw [acc1_next V c t h0]
      iintro ⟨⟨⟨HS, Hoth⟩, Hg⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1 (Memref.isWhole_whole _) hc0 hc1 (blkA1 V c t) (blkB1 V c t) (blkS1 V c t) (acc1 V c (t.val - 1) (Nat.lt_of_le_of_lt (Nat.sub_le _ _) t.isLt))).2.2 ((dat1 V c).before 3 t d3) Set.univ _)
      isplitl [H0]; · iexact H0
      isplitl [H1]; · iexact H1
      isplitl [H2]; · iexact H2
      isplitl [H3]; · iexact H3
      isplitl [HS]; · iexact HS
      iintro ⟨H0, H1, H2, ⟨%eo, H3⟩, ⟨%es, HS⟩⟩
      isplitl [HS Hoth Hg]
      · isplitr [Hg]
        · isplitl [HS]
          · unfold owns; iexists _; isplitr
            swap; · iexact HS
            ipureintro; exact sread1_C c _ _ _ _ _ _ _ _ _ _ _ hc0 hc1 _ _ _ _ _ _
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact oread1_C c _ _ _ _ _ _ _ _ _ _ _ hc0 hc1 _ _ _ _ _ _
    · -- a middle stretch
      have hc0 : ¬cond1_0 (grid1.coords t) := fun h => h0 ((hcond1_0 t).mp h)
      have hc1 : ¬cond1_1 (grid1.coords t) := fun h => h1 ((hcond1_1 t).mp h)
      rw [leaves1_3_idle V c t hc1, PhiS1_named V c t h0, acc1_next V c t h0]
      iintro ⟨⟨⟨HS, Hoth⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1 (Memref.isWhole_whole _) hc0 hc1 (blkA1 V c t) (blkB1 V c t) (blkS1 V c t) (acc1 V c (t.val - 1) (Nat.lt_of_le_of_lt (Nat.sub_le _ _) t.isLt))).2 ((dat1 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitr [Hg]
        · isplitl [HS]
          · unfold owns; iexists _; isplitr
            swap; · iexact HS
            ipureintro; exact sread1_B c _ _ _ _ _ _ _ _ _ _ _ hc0 hc1 _ _ _ _ _ _
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back: the scratch block's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS, Hoth⟩, Hg⟩
  isplitr [Hg]
  · isplitl [HS]
    · iexists _; iexact HS
    iexact Hoth
  iexact Hg

end

end Cert.KernelIdeal.Hand

end
-- ==== Proof.KernelIdeal.R2Defs.lean ====
import proofs.«124954_j13383118094872_1_alg».proof.Proof.Gen.KernelIdeal.Launch
import proofs.«124954_j13383118094872_1_alg».proof.Proof.Gen.KernelIdeal.Skeleton
import proofs.«124954_j13383118094872_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
/-! # The third kernel: blocks of 1024 rows, the contraction in four stretches of 2048

The grid is 8 row blocks by 4 stretches; point t = 4·i + k is row block i, stretch k. A scratch block carries the
running product between the points of one row block; the last stretch copies it into the output window. -/

/-! ## The body's two conditions over the grid -/

/-- "This is the first stretch": the reset of the scratch block is taken. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- "This is the last stretch": the finished block is stored into the output window. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the output window is idle -/

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-! ## The staging memrefs at a point -/

abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x256 .f32 := win2_2.stage (cfg2.slots t 2)
abbrev hs2_2 (t : Fin cfg2.N) : (ms2_2 t).IsWhole := hstage2_2 ((cfg2.slots t 2).cast nbuf2_2)
/-- The scratch block. -/
abbrev scM2 : Memref sig .tc .vmem S1024x256 .f32 := Memref.whole cc2_scratch0
abbrev VS2 : View sig .tc .vmem S1024x256 .f32 := scM2.view
abbrev VO2 : View sig .tc .vmem S1024x256 .f32 := (Memref.whole cc2_stg2_0 : Memref sig .tc .vmem S1024x256 .f32).view

/-- The scoped buffers of the other kernels, which this one never touches: carried unopened. -/
abbrev others2 (c : Dev nD) : sProp 𝕄 :=
  Pipeline.scopedRestBut (Ix := Unit) (Name := ℕ) (U := UR sig nD τ) (Lvl := ℕ) (Val := Elt F) spec2 c [cc2_scratch0]

/-- The region's invariant as the launch hands it over: the scratch block at some contents, the other scoped buffers
    carried unopened, the generator register at some state. -/
theorem PhiA2_eq (c : Dev nD) :
    (Pipeline.ΦA spec2 c : sProp 𝕄)
      = iprop(((∃ d, owns (c : Thread nD τ) scM2 fullShare d) ∗ others2 c) ∗ (∃ r, prngReg c r)) := by
  unfold Pipeline.ΦA
  rw [Pipeline.scopedRest_split_of_list spec2 c [cc2_scratch0] (by decide) (by decide)]
  simp only [scM2, owns_whole, bigSepL]
  try rfl

end

/-! ## The blocks the windows show, and what the body leaves -/

section
-- the buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The 1024 by 2048 block of the left matrix at point t: rows of block i, columns of stretch k. -/
abbrev blkA2 (c : Dev nD) (t : Fin cfg2.N) : Vec F S1024x2048 .f32 := iblk2 V c 0 t
/-- The 2048 by 256 block of the right matrix at point t: rows of stretch k. -/
abbrev blkB2 (c : Dev nD) (t : Fin cfg2.N) : Vec F S2048x256 .f32 := iblk2 V c 1 t

/-- THE RUNNING PRODUCT. What the scratch block holds after the body at point n: the block before — zero at the first
    stretch of a row block — plus this stretch's product. -/
def acc2 (c : Dev nD) : (n : ℕ) → n < cfg2.N → Vec F S1024x256 .f32
  | 0, hn => k2_pay2 (blkA2 V c ⟨0, hn⟩) (blkB2 V c ⟨0, hn⟩) (k2_pay1 (F := F))
  | n + 1, hn =>
    if (n + 1) % 4 = 0 then k2_pay2 (blkA2 V c ⟨n + 1, hn⟩) (blkB2 V c ⟨n + 1, hn⟩) (k2_pay1 (F := F))
    else k2_pay2 (blkA2 V c ⟨n + 1, hn⟩) (blkB2 V c ⟨n + 1, hn⟩) (acc2 c n (Nat.lt_of_succ_lt hn))

/-- At the first stretch of a row block the running product restarts from zero. -/
theorem acc2_first (c : Dev nD) (t : Fin cfg2.N) (h : t.val % 4 = 0) :
    acc2 V c t.val t.isLt = k2_pay2 (blkA2 V c t) (blkB2 V c t) (k2_pay1 (F := F)) := by
  obtain ⟨n, hn⟩ := t
  cases n with
  | zero => rfl
  | succ n => exact if_pos h

/-- At a later stretch it continues from what the point before left. -/
theorem acc2_next (c : Dev nD) (t : Fin cfg2.N) (h : ¬t.val % 4 = 0) :
    acc2 V c t.val t.isLt = k2_pay2 (blkA2 V c t) (blkB2 V c t) (acc2 V c (t.val - 1) (Nat.lt_of_le_of_lt (Nat.sub_le _ _) t.isLt)) := by
  obtain ⟨n, hn⟩ := t
  cases n with
  | zero => exact absurd (Nat.zero_mod _) h
  | succ n => exact if_neg h

/-- What the last stretch stores into the output window: the finished block. -/
def out2 (c : Dev nD) (t : Fin cfg2.N) : Vec F S1024x256 .f32 :=
  acc2 V c t.val t.isLt

/-- The region's invariant before point n: at the start what the launch hands over; afterwards the scratch block at the
    running product the point before left, the other kernels' buffers unopened, the generator register at some state. -/
def PhiS2 (c : Dev nD) : (n : ℕ) → n ≤ cfg2.N → sProp 𝕄
  | 0, _ => Pipeline.ΦA spec2 c
  | n + 1, hn => iprop((owns (c : Thread nD τ) scM2 fullShare (acc2 V c n hn) ∗ others2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((owns (c : Thread nD τ) scM2 fullShare (acc2 V c n hn) ∗ others2 c) ∗ (∃ r, prngReg c r)) := rfl

theorem PhiS2_pos (c : Dev nD) (n : ℕ) (h : n ≤ cfg2.N) (hz : n ≠ 0) :
    PhiS2 V c n h = iprop((owns (c : Thread nD τ) scM2 fullShare (acc2 V c (n - 1) (by omega)) ∗ others2 c) ∗ (∃ r, prngReg c r)) := by
  cases n with
  | zero => exact absurd rfl hz
  | succ n => rfl

/-- The proof data of this pipeline on core c: the arrays as the region finds them; after the body each input window at
    its block and the output window at the finished block (consulted only at a last stretch); the invariant above;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 V c t := by dsimp only [dat2]

/-- Each input window's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

end

end Cert.KernelIdeal.Hand

end
-- ==== Proof.KernelIdeal.R2Runs.lean ====
import proofs.«124954_j13383118094872_1_alg».proof.Proof.Gen.KernelIdeal.Launch
import proofs.«124954_j13383118094872_1_alg».proof.Proof.Gen.KernelIdeal.Skeleton
import proofs.«124954_j13383118094872_1_alg».proof.Proof.Gen.KernelIdeal.Points
import proofs.«124954_j13383118094872_1_alg».proof.Proof.KernelIdeal.R2Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The third kernel's body, run case by case

At each point the body is one of three straight-line programs, by the two conditions on the stretch number. Each is run
once, on any whole memrefs and any contents; the stores it leaves are found by the run, and read back below. -/

theorem hz2_ : (![0, 0] : Fin 2 → Nat) = fun _ => 0 := by
  funext a; match a with | ⟨0, _⟩ => rfl | ⟨1, _⟩ => rfl

set_option maxHeartbeats 1000000 in
/-- The first stretch of a row block: the scratch block is reset, then receives the first product; the output window is left as found. -/
noncomputable def kernelRun2_A (c : Dev nD) (i : grid2.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : cond2_0 i) (hc1 : ¬cond2_1 i)
    (x0 : Vec F S1024x2048 .f32) (x1 : Vec F S2048x256 .f32) (xs : Vec F S1024x256 .f32) :
    { LS : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc2__matmul_kernel i arg2 harg2 arg3 harg3 arg4 harg4 arg5 harg5) K } := by
  refine ⟨?_, fun xi E K => ?run⟩
  case run =>
    simp only [cc2__matmul_kernel_eq_skeleton]; unfold cc2__matmul_kernel_skel
    unfold owns
    iintro ⟨⟨%f0, %hf0, H0⟩, ⟨%f1, %hf1, H1⟩, ⟨%f3, %hf3, H3⟩, ⟨%fs, %hfs, HS⟩, Hk⟩
    obtain rfl := harg2.eq_unread hf0; obtain rfl := harg3.eq_unread hf1; obtain rfl := harg4.eq_unread hf3; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg4.read_unread _
      iexact H3
    iexists _; iexact HS

set_option maxHeartbeats 1000000 in
/-- A middle stretch: the product is added to the scratch block; the output window is left as found. -/
noncomputable def kernelRun2_B (c : Dev nD) (i : grid2.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : ¬cond2_1 i)
    (x0 : Vec F S1024x2048 .f32) (x1 : Vec F S2048x256 .f32) (xs : Vec F S1024x256 .f32) :
    { LS : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc2__matmul_kernel i arg2 harg2 arg3 harg3 arg4 harg4 arg5 harg5) K } := by
  refine ⟨?_, fun xi E K => ?run⟩
  case run =>
    simp only [cc2__matmul_kernel_eq_skeleton]; unfold cc2__matmul_kernel_skel
    unfold owns
    iintro ⟨⟨%f0, %hf0, H0⟩, ⟨%f1, %hf1, H1⟩, ⟨%f3, %hf3, H3⟩, ⟨%fs, %hfs, HS⟩, Hk⟩
    obtain rfl := harg2.eq_unread hf0; obtain rfl := harg3.eq_unread hf1; obtain rfl := harg4.eq_unread hf3; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg4.read_unread _
      iexact H3
    iexists _; iexact HS

set_option maxHeartbeats 1000000 in
/-- The last stretch: the product is added to the scratch block, and the finished block is stored into the output window. -/
noncomputable def kernelRun2_C (c : Dev nD) (i : grid2.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : cond2_1 i)
    (x0 : Vec F S1024x2048 .f32) (x1 : Vec F S2048x256 .f32) (xs : Vec F S1024x256 .f32) :
    Σ' (LO : List (View.Piece (Elt F) S1024x256 .f32)), { LS : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc2__matmul_kernel i arg2 harg2 arg3 harg3 arg4 harg4 arg5 harg5) K } := by
  refine ⟨?_, ?_, fun xi E K => ?run⟩
  case run =>
    simp only [cc2__matmul_kernel_eq_skeleton]; unfold cc2__matmul_kernel_skel
    unfold owns
    iintro ⟨⟨%f0, %hf0, H0⟩, ⟨%f1, %hf1, H1⟩, ⟨%f3, %hf3, H3⟩, ⟨%fs, %hfs, HS⟩, Hk⟩
    obtain rfl := harg2.eq_unread hf0; obtain rfl := harg3.eq_unread hf1; obtain rfl := harg4.eq_unread hf3; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; iexact H3
    iexists _; iexact HS

theorem scover2_A (c : Dev nD) (i : grid2.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : cond2_0 i) (hc1 : ¬cond2_1 i)
    (x0 : Vec F S1024x2048 .f32) (x1 : Vec F S2048x256 .f32) (xs : Vec F S1024x256 .f32) (y : S1024x256.Idx) :
    ∃ pc ∈ (kernelRun2_A c i arg2 harg2 arg3 harg3 arg4 harg4 arg5 harg5 hc0 hc1 x0 x1 xs).1, y ∈ pc.1.set :=
  View.cover_of_tiledL (kernelRun2_A c i arg2 harg2 arg3 harg3 arg4 harg4 arg5 harg5 hc0 hc1 x0 x1 xs).1 S1024x256.size (by sl_kernel_rfl) y

theorem scover2_B (c : Dev nD) (i : grid2.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : ¬cond2_1 i)
    (x0 : Vec F S1024x2048 .f32) (x1 : Vec F S2048x256 .f32) (xs : Vec F S1024x256 .f32) (y : S1024x256.Idx) :
    ∃ pc ∈ (kernelRun2_B c i arg2 harg2 arg3 harg3 arg4 harg4 arg5 harg5 hc0 hc1 x0 x1 xs).1, y ∈ pc.1.set :=
  View.cover_of_tiledL (kernelRun2_B c i arg2 harg2 arg3 harg3 arg4 harg4 arg5 harg5 hc0 hc1 x0 x1 xs).1 S1024x256.size (by sl_kernel_rfl) y

theorem scover2_C (c : Dev nD) (i : grid2.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : cond2_1 i)
    (x0 : Vec F S1024x2048 .f32) (x1 : Vec F S2048x256 .f32) (xs : Vec F S1024x256 .f32) (y : S1024x256.Idx) :
    ∃ pc ∈ (kernelRun2_C c i arg2 harg2 arg3 harg3 arg4 harg4 arg5 harg5 hc0 hc1 x0 x1 xs).2.1, y ∈ pc.1.set :=
  View.cover_of_tiledL (kernelRun2_C c i arg2 harg2 arg3 harg3 arg4 harg4 arg5 harg5 hc0 hc1 x0 x1 xs).2.1 S1024x256.size (by sl_kernel_rfl) y

theorem ocover2_C (c : Dev nD) (i : grid2.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : cond2_1 i)
    (x0 : Vec F S1024x2048 .f32) (x1 : Vec F S2048x256 .f32) (xs : Vec F S1024x256 .f32) (y : S1024x256.Idx) :
    ∃ pc ∈ (kernelRun2_C c i arg2 harg2 arg3 harg3 arg4 harg4 arg5 harg5 hc0 hc1 x0 x1 xs).1, y ∈ pc.1.set :=
  View.cover_of_tiledL (kernelRun2_C c i arg2 harg2 arg3 harg3 arg4 harg4 arg5 harg5 hc0 hc1 x0 x1 xs).1 S1024x256.size (by sl_kernel_rfl) y

theorem sread2_A (c : Dev nD) (i : grid2.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : cond2_0 i) (hc1 : ¬cond2_1 i)
    (x0 : Vec F S1024x2048 .f32) (x1 : Vec F S2048x256 .f32) (xs : Vec F S1024x256 .f32)
    (v : View sig .tc .vmem S1024x256 .f32) (f : v.ty.Contents (Elt F)) :
    v.read (Elt F) (v.writes (Elt F) f (kernelRun2_A c i arg2 harg2 arg3 harg3 arg4 harg4 arg5 harg5 hc0 hc1 x0 x1 xs).1) = k2_pay2 x0 x1 (k2_pay1 (F := F)) := by
  rw [View.read_writes_eq_canon _ _ _ (scover2_A c i arg2 harg2 arg3 harg3 arg4 harg4 arg5 harg5 hc0 hc1 x0 x1 xs)]
  unfold kernelRun2_A
  dsimp only
  sl_unfold_words
  rw [View.canon_cons_unit_zero (S := S1024x256) hz2_]
  simp only [View.readAt_eq_ld, harg2.read_unread, harg3.read_unread, View.ld_unit_zero (S := S1024x2048) hz2_, View.ld_unit_zero (S := S2048x256) hz2_, View.ld_unit_zero (S := S1024x256) hz2_, View.readCov_unit_zero (S := S1024x256) _ hz2_]

theorem sread2_B (c : Dev nD) (i : grid2.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : ¬cond2_1 i)
    (x0 : Vec F S1024x2048 .f32) (x1 : Vec F S2048x256 .f32) (xs : Vec F S1024x256 .f32)
    (v : View sig .tc .vmem S1024x256 .f32) (f : v.ty.Contents (Elt F)) :
    v.read (Elt F) (v.writes (Elt F) f (kernelRun2_B c i arg2 harg2 arg3 harg3 arg4 harg4 arg5 harg5 hc0 hc1 x0 x1 xs).1) = k2_pay2 x0 x1 xs := by
  rw [View.read_writes_eq_canon _ _ _ (scover2_B c i arg2 harg2 arg3 harg3 arg4 harg4 arg5 harg5 hc0 hc1 x0 x1 xs)]
  unfold kernelRun2_B
  dsimp only
  sl_unfold_words
  rw [View.canon_unit_zero (S := S1024x256) hz2_]
  simp only [View.readAt_eq_ld, harg2.read_unread, harg3.read_unread, harg5.read_unread, View.ld_unit_zero (S := S1024x2048) hz2_, View.ld_unit_zero (S := S2048x256) hz2_, View.ld_unit_zero (S := S1024x256) hz2_]

theorem sread2_C (c : Dev nD) (i : grid2.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : cond2_1 i)
    (x0 : Vec F S1024x2048 .f32) (x1 : Vec F S2048x256 .f32) (xs : Vec F S1024x256 .f32)
    (v : View sig .tc .vmem S1024x256 .f32) (f : v.ty.Contents (Elt F)) :
    v.read (Elt F) (v.writes (Elt F) f (kernelRun2_C c i arg2 harg2 arg3 harg3 arg4 harg4 arg5 harg5 hc0 hc1 x0 x1 xs).2.1) = k2_pay2 x0 x1 xs := by
  rw [View.read_writes_eq_canon _ _ _ (scover2_C c i arg2 harg2 arg3 harg3 arg4 harg4 arg5 harg5 hc0 hc1 x0 x1 xs)]
  unfold kernelRun2_C
  dsimp only
  sl_unfold_words
  rw [View.canon_unit_zero (S := S1024x256) hz2_]
  simp only [View.readAt_eq_ld, harg2.read_unread, harg3.read_unread, harg5.read_unread, View.ld_unit_zero (S := S1024x2048) hz2_, View.ld_unit_zero (S := S2048x256) hz2_, View.ld_unit_zero (S := S1024x256) hz2_]

theorem oread2_C (c : Dev nD) (i : grid2.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : cond2_1 i)
    (x0 : Vec F S1024x2048 .f32) (x1 : Vec F S2048x256 .f32) (xs : Vec F S1024x256 .f32)
    (v : View sig .tc .vmem S1024x256 .f32) (f : v.ty.Contents (Elt F)) :
    v.read (Elt F) (v.writes (Elt F) f (kernelRun2_C c i arg2 harg2 arg3 harg3 arg4 harg4 arg5 harg5 hc0 hc1 x0 x1 xs).1) = k2_pay2 x0 x1 xs := by
  rw [View.read_writes_eq_canon _ _ _ (ocover2_C c i arg2 harg2 arg3 harg3 arg4 harg4 arg5 harg5 hc0 hc1 x0 x1 xs)]
  unfold kernelRun2_C
  dsimp only
  sl_unfold_words
  rw [View.canon_unit_zero (S := S1024x256) hz2_]
  simp only [View.readAt_eq_ld, harg2.read_unread, harg3.read_unread, harg5.read_unread, View.ld_unit_zero (S := S1024x2048) hz2_, View.ld_unit_zero (S := S2048x256) hz2_, View.ld_unit_zero (S := S1024x256) hz2_, View.readCov_unit_zero (S := S1024x256) _ hz2_]

end Cert.KernelIdeal.Hand

end
-- ==== Proof.KernelIdeal.R2Body.lean ====
import proofs.«124954_j13383118094872_1_alg».proof.Proof.Gen.KernelIdeal.Launch
import proofs.«124954_j13383118094872_1_alg».proof.Proof.Gen.KernelIdeal.Skeleton
import proofs.«124954_j13383118094872_1_alg».proof.Proof.Gen.KernelIdeal.Points
import proofs.«124954_j13383118094872_1_alg».proof.Proof.KernelIdeal.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The third kernel's body obligation

At every point the body, called with the windows' current staging buffers at their blocks and the invariant, runs to the
invariant at the next point and the buffers at what the proof data say: by the point's stretch number it is one of the
three runs, and what each run's stores leave is the running product (at a last stretch also in the output window). -/

section
variable (V : (c : Dev nD) → (b : Ref sig .tc) → Buf (Elt F) ((c : Thread nD τ).loc b))

/-- What the body is called with at point t. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- What it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]
theorem leaves2_2_idle (c : Dev nD) (t : Fin cfg2.N) (h : ¬cond2_1 (grid2.coords t)) :
    (dat2 V c).leavesExact 2 t = iprop(∃ d, owns (c : Thread nD τ) (ms2_2 t) fullShare ((dat2 V c).before 2 t d)) :=
  Dat.leavesExact_idle (dat2 V c) 2 t (idleAt2_2 t h) (noFlush2_2 t h)
theorem leaves2_2_live (c : Dev nD) (t : Fin cfg2.N) (h : cond2_1 (grid2.coords t)) :
    (dat2 V c).leavesExact 2 t = owns (c : Thread nD τ) (ms2_2 t) fullShare (out2 V c t) := by
  unfold Dat.leavesExact; rw [liveAt2_2 t h, after2_2]

/-- Before any point the invariant holds the scratch block at SOME contents (named or not), beside the rest. -/
theorem PhiS2_some (c : Dev nD) (t : Fin cfg2.N) :
    (dat2 V c).Φ t.castSucc ⊢ (iprop(((∃ d, owns (c : Thread nD τ) scM2 fullShare d) ∗ others2 c) ∗ (∃ r, prngReg c r)) : sProp 𝕄) := by
  rw [PhiS2_castSucc]
  by_cases hz : t.val = 0
  · rw [PhiS2_zero V c _ _ hz, PhiA2_eq]
  · rw [PhiS2_pos V c _ _ hz]
    iintro ⟨⟨HS, Hoth⟩, Hg⟩
    isplitr [Hg]
    · isplitl [HS]
      · iexists _; iexact HS
      iexact Hoth
    iexact Hg

/-- Before a point that is not the first of its row block the scratch block holds the running product the point before left. -/
theorem PhiS2_named (c : Dev nD) (t : Fin cfg2.N) (h0 : ¬t.val % 4 = 0) :
    (dat2 V c).Φ t.castSucc = iprop((owns (c : Thread nD τ) scM2 fullShare (acc2 V c (t.val - 1) (Nat.lt_of_le_of_lt (Nat.sub_le _ _) t.isLt)) ∗ others2 c) ∗ (∃ r, prngReg c r)) := by
  rw [PhiS2_castSucc, PhiS2_pos V c _ _ (fun hz => h0 (by rw [hz]))]

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [leaves2_0, leaves2_1]
  by_cases h0 : t.val % 4 = 0
  · -- the first stretch of a row block
    have h1 : ¬t.val % 4 = 3 := by omega
    have hc0 : cond2_0 (grid2.coords t) := (hcond2_0 t).mpr h0
    have hc1 : ¬cond2_1 (grid2.coords t) := fun h => h1 ((hcond2_1 t).mp h)
    rw [leaves2_2_idle V c t hc1, acc2_first V c t h0]
    iintro ⟨HΦ, Ho, ⟨%d0, H0⟩, ⟨%d1, H1⟩, ⟨%d3, H3⟩⟩
    ihave HΦ' := (PhiS2_some V c t) $$ HΦ
    icases HΦ' with ⟨⟨⟨%ds, HS⟩, Hoth⟩, Hg⟩
    iapply ((kernelRun2_A c (grid2.coords t) (ms2_0 t) (hs2_0 t) (ms2_1 t) (hs2_1 t) (ms2_2 t) (hs2_2 t) scM2 (Memref.isWhole_whole _) hc0 hc1 (blkA2 V c t) (blkB2 V c t) ds).2 ((dat2 V c).before 2 t d3) Set.univ _)
    isplitl [H0]; · iexact H0
    isplitl [H1]; · iexact H1
    isplitl [H3]; · iexact H3
    isplitl [HS]; · iexact HS
    iintro ⟨H0, H1, H3, ⟨%es, HS⟩⟩
    isplitl [HS Hoth Hg]
    · isplitr [Hg]
      · isplitl [HS]
        · unfold owns; iexists _; isplitr
          swap; · iexact HS
          ipureintro; exact sread2_A c _ _ _ _ _ _ _ _ _ hc0 hc1 _ _ _ _ _
        iexact Hoth
      iexact Hg
    isplitl [Ho]; · iexact Ho
    isplitl [H0]; · iexact H0
    isplitl [H1]; · iexact H1
    iexists _; iexact H3
  · by_cases h1 : t.val % 4 = 3
    · -- the last stretch
      have hc0 : ¬cond2_0 (grid2.coords t) := fun h => h0 ((hcond2_0 t).mp h)
      have hc1 : cond2_1 (grid2.coords t) := (hcond2_1 t).mpr h1
      rw [leaves2_2_live V c t hc1, PhiS2_named V c t h0]
      unfold out2
      rw [acc2_next V c t h0]
      iintro ⟨⟨⟨HS, Hoth⟩, Hg⟩, Ho, ⟨%d0, H0⟩, ⟨%d1, H1⟩, ⟨%d3, H3⟩⟩
      iapply ((kernelRun2_C c (grid2.coords t) (ms2_0 t) (hs2_0 t) (ms2_1 t) (hs2_1 t) (ms2_2 t) (hs2_2 t) scM2 (Memref.isWhole_whole _) hc0 hc1 (blkA2 V c t) (blkB2 V c t) (acc2 V c (t.val - 1) (Nat.lt_of_le_of_lt (Nat.sub_le _ _) t.isLt))).2.2 ((dat2 V c).before 2 t d3) Set.univ _)
      isplitl [H0]; · iexact H0
      isplitl [H1]; · iexact H1
      isplitl [H3]; · iexact H3
      isplitl [HS]; · iexact HS
      iintro ⟨H0, H1, ⟨%eo, H3⟩, ⟨%es, HS⟩⟩
      isplitl [HS Hoth Hg]
      · isplitr [Hg]
        · isplitl [HS]
          · unfold owns; iexists _; isplitr
            swap; · iexact HS
            ipureintro; exact sread2_C c _ _ _ _ _ _ _ _ _ hc0 hc1 _ _ _ _ _
          iexact Hoth
        iexact Hg
      isplitl [Ho]; · iexact Ho
      isplitl [H0]; · iexact H0
      isplitl [H1]; · iexact H1
      unfold owns; iexists _; isplitr
      swap; · iexact H3
      ipureintro; exact oread2_C c _ _ _ _ _ _ _ _ _ hc0 hc1 _ _ _ _ _
    · -- a middle stretch
      have hc0 : ¬cond2_0 (grid2.coords t) := fun h => h0 ((hcond2_0 t).mp h)
      have hc1 : ¬cond2_1 (grid2.coords t) := fun h => h1 ((hcond2_1 t).mp h)
      rw [leaves2_2_idle V c t hc1, PhiS2_named V c t h0, acc2_next V c t h0]
      iintro ⟨⟨⟨HS, Hoth⟩, Hg⟩, Ho, ⟨%d0, H0⟩, ⟨%d1, H1⟩, ⟨%d3, H3⟩⟩
      iapply ((kernelRun2_B c (grid2.coords t) (ms2_0 t) (hs2_0 t) (ms2_1 t) (hs2_1 t) (ms2_2 t) (hs2_2 t) scM2 (Memref.isWhole_whole _) hc0 hc1 (blkA2 V c t) (blkB2 V c t) (acc2 V c (t.val - 1) (Nat.lt_of_le_of_lt (Nat.sub_le _ _) t.isLt))).2 ((dat2 V c).before 2 t d3) Set.univ _)
      isplitl [H0]; · iexact H0
      isplitl [H1]; · iexact H1
      isplitl [H3]; · iexact H3
      isplitl [HS]; · iexact HS
      iintro ⟨H0, H1, H3, ⟨%es, HS⟩⟩
      isplitl [HS Hoth Hg]
      · isplitr [Hg]
        · isplitl [HS]
          · unfold owns; iexists _; isplitr
            swap; · iexact HS
            ipureintro; exact sread2_B c _ _ _ _ _ _ _ _ _ hc0 hc1 _ _ _ _ _
          iexact Hoth
        iexact Hg
      isplitl [Ho]; · iexact Ho
      isplitl [H0]; · iexact H0
      isplitl [H1]; · iexact H1
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After the last point the invariant gives it back: the scratch block's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨HS, Hoth⟩, Hg⟩
  isplitr [Hg]
  · isplitl [HS]
    · iexists _; iexact HS
    iexact Hoth
  iexact Hg

end

end Cert.KernelIdeal.Hand

end
-- ==== Proof.KernelIdeal.RunDefs.lean ====
import proofs.«124954_j13383118094872_1_alg».proof.Proof.Gen.KernelIdeal.Launch
import proofs.«124954_j13383118094872_1_alg».proof.Proof.Gen.KernelIdeal.Skeleton
import proofs.«124954_j13383118094872_1_alg».proof.Proof.Gen.KernelIdeal.Points
import proofs.«124954_j13383118094872_1_alg».proof.Proof.KernelIdeal.R0Defs
import proofs.«124954_j13383118094872_1_alg».proof.Proof.KernelIdeal.R1Defs
import proofs.«124954_j13383118094872_1_alg».proof.Proof.KernelIdeal.R2Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The buffers' contents from the launch to the return

@main is: the first kernel, one host operation (the filter reshaped to a column), the second kernel, the third kernel.
The contents of every unscoped buffer at each boundary are a fold from the launch memory: a kernel region leaves its
arrays at what its write-backs make of them and every other buffer as entered; the host operation writes its result. -/

variable (m : (ℓ : Loc nD τ sig) → Buf (Elt F) ℓ) (ρ : Dev nD → PrngReg)

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the first kernel. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operation. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After the second kernel. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the third kernel: the return. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- The host operation writes only its own result. -/
theorem W2_of_ne (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- Every pipeline's proof data, each at its region's entry contents. -/
abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c

end Cert.KernelIdeal.Hand

end
-- ==== Proof.KernelIdeal.RunArgs.lean ====
import proofs.«124954_j13383118094872_1_alg».proof.Proof.Gen.KernelIdeal.Launch
import proofs.«124954_j13383118094872_1_alg».proof.Proof.Gen.KernelIdeal.Skeleton
import proofs.«124954_j13383118094872_1_alg».proof.Proof.Gen.KernelIdeal.Points
import proofs.«124954_j13383118094872_1_alg».proof.Proof.KernelIdeal.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The argument arrays end as launched

No kernel region writes an argument (each reads it through an input window or passes it by) and the host operation writes
only its own result, so the fold of the contents, read at an argument's buffer, walks back to the launch memory. -/

variable (m : (ℓ : Loc nD τ sig) → Buf (Elt F) ℓ) (ρ : Dev nD → PrngReg)

/-- The features: the first kernel's first input window; the later regions and the host operation pass them by. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) :=
      (W1_arr m ρ c 0).trans (((dat0 (V0 m ρ) c).arrAt_in 0 rfl _).trans (A_eq0 (V0 m ρ) c 0))
    _ = m ((c : Thread nD τ).loc main_arg0) := rfl

/-- The wavelet matrix: the third kernel's first input window; everything before passes it by. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) :=
      (W4_arr m ρ c 0).trans (((dat2 (V3 m ρ) c).arrAt_in 0 rfl _).trans (A_eq2 (V3 m ρ) c 0))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

/-- The inverse wavelet matrix: the second kernel's first input window; the other regions and the host operation pass it by. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) :=
      (W3_arr m ρ c 0).trans (((dat1 (V2 m ρ) c).arrAt_in 0 rfl _).trans (A_eq1 (V2 m ρ) c 0))
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-- The weight: the first kernel's second input window; the later regions and the host operation pass it by. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) :=
      (W1_arr m ρ c 1).trans (((dat0 (V0 m ρ) c).arrAt_in 1 rfl _).trans (A_eq0 (V0 m ρ) c 1))
    _ = m ((c : Thread nD τ).loc main_arg3) := rfl

/-- The filter: no kernel's window (the second kernel reads its reshaped copy); the host operation only reads it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

end Cert.KernelIdeal.Hand

end
-- ==== Proof.KernelIdeal.Run.lean ====
import proofs.«124954_j13383118094872_1_alg».proof.Proof.Gen.KernelIdeal.Launch
import proofs.«124954_j13383118094872_1_alg».proof.Proof.Gen.KernelIdeal.Skeleton
import proofs.«124954_j13383118094872_1_alg».proof.Proof.Gen.KernelIdeal.Points
import proofs.«124954_j13383118094872_1_alg».proof.Proof.KernelIdeal.R0Body
import proofs.«124954_j13383118094872_1_alg».proof.Proof.KernelIdeal.R1Body
import proofs.«124954_j13383118094872_1_alg».proof.Proof.KernelIdeal.R2Body
import proofs.«124954_j13383118094872_1_alg».proof.Proof.KernelIdeal.RunDefs
import proofs.«124954_j13383118094872_1_alg».proof.Proof.KernelIdeal.RunArgs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run: @main's four segments from the launch to the return

Each kernel region is a segment entered with every unscoped buffer at the contents the fold names and left with them at
the next; the host operation is a segment between; beside the buffers ride the generator register, at some state, and the
core's account, at nothing owed. The launch over the segments then says: every weakly fair execution terminates, and
every unscoped buffer ends at the last contents of the fold. -/

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The host operation allocates no buffer. -/
theorem hostOps1_fresh : (hostOps1 : List (HloOp τ sig (Elt F))).Forall fun op => op.fresh = ∅ := by
  simp only [List.Forall]; repeat' constructor
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the account. -/
abbrev Tₙ (c : Dev nD) : sProp 𝕄 := iprop(StableHlo.held (c : Thread nD τ) (Pipeline.ucRefs τ sig) (W4 m ρ c) ∗ ∃ r, prngReg c r)

/-- The region's exit: the invariant the launch handed over, regrouped as the generator register, no semaphore of the
    kernel's own, and the scoped rest. -/
theorem PhiA_out0 (c : Dev nD) :
    (Pipeline.ΦA spec0 c : sProp 𝕄) ⊢ iprop((∃ r, prngReg c r) ∗ emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

/-- The region's exit: the invariant the launch handed over, regrouped as the generator register, no semaphore of the
    kernel's own, and the scoped rest. -/
theorem PhiA_out1 (c : Dev nD) :
    (Pipeline.ΦA spec1 c : sProp 𝕄) ⊢ iprop((∃ r, prngReg c r) ∗ emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

/-- The region's exit: the invariant the launch handed over, regrouped as the generator register, no semaphore of the
    kernel's own, and the scoped rest. -/
theorem PhiA_out2 (c : Dev nD) :
    (Pipeline.ΦA spec2 c : sProp 𝕄) ⊢ iprop((∃ r, prngReg c r) ∗ emp ∗ Pipeline.scopedRest (Ix := Unit) (Name := ℕ) (U := UR sig nD τ) (Lvl := ℕ) (Val := Elt F) spec2 c) := by
  unfold Pipeline.ΦA
  iintro ⟨Hr, Hp⟩
  isplitl [Hp]; · iexact Hp
  isplitr; · iempintro
  iexact Hr

set_option backward.isDefEq.respectTransparency.types false in
/-- Kernel region 0 over the thread state: entered with every unscoped buffer at the contents before it, left with them
    at the contents after it. Its arrays are split out of the unscoped buffers and put back at the exit contents; the
    generator register goes into the region's invariant and comes back; nothing is owed; the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (hout0 (V0 m ρ) c).trans (PhiA_out0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered with every unscoped buffer at the contents before it, left with them
    at the contents after it. Its arrays are split out of the unscoped buffers and put back at the exit contents; the
    generator register goes into the region's invariant and comes back; nothing is owed; the kernel has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1 (V2 m ρ) c).trans (PhiA_out1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 2 over the thread state: entered with every unscoped buffer at the contents before it, left with them
    at the contents after it. Its arrays are split out of the unscoped buffers and put back at the exit contents; the
    generator register goes into the region's invariant and comes back; nothing is owed; the kernel has no semaphore of
    its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    exact (hout2 (V3 m ρ) c).trans (PhiA_out2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer ends at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Hand

end
-- ==== Proof.Payloads.lean ====
/-
  What each kernel body computes between its loads and its stores, read at one entry over the extended reals. There a
  change of float format is the identity and the matrix unit's product into a zero accumulator is the exact sum of exact
  products, so one step of a kernel adds to the running block its stretch of the contraction, and the second kernel's last
  step multiplies row p of the finished block by the p-th filter factor.
-/
import proofs.«124954_j13383118094872_1_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.Wavelet.Pay

open Idealize.ShloMosaic Idealize.ShloMosaic.ValueIdx
open Cert.KernelIdeal Cert.KernelIdeal.Gen

variable [Cert.KernelIdeal.Facts]

/-! ## Reading the two dots and the column broadcast at an entry -/

/-! ### The operand indices of the first kernel's dot, [2048, 256] times [256, 256]

The dot contracts axis 1 of the left operand with axis 0 of the right one and has no batch axis, so at the output entry
(r, c) and the contraction coordinate k the left operand is read at (r, k) and the right one at (k, c). The four
coordinates are stated one axis at a time. -/

theorem dotA_lhs_row (i : S2048x256.Idx) (k : dot_S2048x256_S256x256_S2048x256_1_0_0_1_n_n.contr.Idx) :
    (dot_S2048x256_S256x256_S2048x256_1_0_0_1_n_n.lhsIdx i k 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl

theorem dotA_lhs_col (i : S2048x256.Idx) (k : dot_S2048x256_S256x256_S2048x256_1_0_0_1_n_n.contr.Idx) :
    (dot_S2048x256_S256x256_S2048x256_1_0_0_1_n_n.lhsIdx i k 1).val = (k ⟨0, by decide⟩).val :=
  dot_S2048x256_S256x256_S2048x256_1_0_0_1_n_n.lhsIdx_val_of_single rfl i k

theorem dotA_rhs_row (i : S2048x256.Idx) (k : dot_S2048x256_S256x256_S2048x256_1_0_0_1_n_n.contr.Idx) :
    (dot_S2048x256_S256x256_S2048x256_1_0_0_1_n_n.rhsIdx i k 0).val = (k ⟨0, by decide⟩).val :=
  dot_S2048x256_S256x256_S2048x256_1_0_0_1_n_n.rhsIdx_val_of_single rfl i k

theorem dotA_rhs_col (i : S2048x256.Idx) (k : dot_S2048x256_S256x256_S2048x256_1_0_0_1_n_n.contr.Idx) :
    (dot_S2048x256_S256x256_S2048x256_1_0_0_1_n_n.rhsIdx i k 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- The product into the zero block, at the entry (p, q): the sum over the 256 contraction coordinates j of the left
    operand at (p, j) times the right operand at (j, q). The library's sum runs over the contraction shape's indices; its
    one coordinate carries it to a sum over Fin 256. -/
theorem dotA_matmul_apply {φ₁ φ₂ : FTy} (a : FVec Ideal S2048x256 φ₁) (b : FVec Ideal S256x256 φ₂) (p : Fin 2048) (q : Fin 256) :
    FloatOps.matmul dot_S2048x256_S256x256_S2048x256_1_0_0_1_n_n none a b (constant S2048x256 .f32 0x00000000#32) (ix2 p q)
      = ∑ j : Fin 256, a (ix2 p j) * b (ix2 j q) := by
  rw [Ideal.matmul_constant_zero_apply, ← Equiv.sum_comp (contrEquiv1 dot_S2048x256_S256x256_S2048x256_1_0_0_1_n_n 256 rfl rfl).symm]
  refine Finset.sum_congr rfl fun j _ => ?_
  have hj := contrEquiv1_symm_val dot_S2048x256_S256x256_S2048x256_1_0_0_1_n_n 256 rfl rfl j
  have el : dot_S2048x256_S256x256_S2048x256_1_0_0_1_n_n.lhsIdx (ix2 p q) ((contrEquiv1 dot_S2048x256_S256x256_S2048x256_1_0_0_1_n_n 256 rfl rfl).symm j) = ix2 p j :=
    funext fun ax => Fin.ext (by
      match ax with
      | ⟨0, _⟩ => exact dotA_lhs_row _ _
      | ⟨1, _⟩ => exact (dotA_lhs_col _ _).trans hj)
  have er : dot_S2048x256_S256x256_S2048x256_1_0_0_1_n_n.rhsIdx (ix2 p q) ((contrEquiv1 dot_S2048x256_S256x256_S2048x256_1_0_0_1_n_n 256 rfl rfl).symm j) = ix2 j q :=
    funext fun ax => Fin.ext (by
      match ax with
      | ⟨0, _⟩ => exact (dotA_rhs_row _ _).trans hj
      | ⟨1, _⟩ => exact dotA_rhs_col _ _)
  rw [el, er]

/-! ### The operand indices of the second and third kernels' dot, [1024, 2048] times [2048, 256]

The dot contracts axis 1 of the left operand with axis 0 of the right one and has no batch axis, so at the output entry
(r, c) and the contraction coordinate k the left operand is read at (r, k) and the right one at (k, c). The four
coordinates are stated one axis at a time. -/

theorem dotB_lhs_row (i : S1024x256.Idx) (k : dot_S1024x2048_S2048x256_S1024x256_1_0_0_1_n_n.contr.Idx) :
    (dot_S1024x2048_S2048x256_S1024x256_1_0_0_1_n_n.lhsIdx i k 0).val = (i 0).val := by
  unfold DotDims.lhsIdx
  rw [dif_neg (show ¬(0 : Fin S1024x2048.rank) ∈ dot_S1024x2048_S2048x256_S1024x256_1_0_0_1_n_n.lhsBatch by decide),
    dif_pos (show (0 : Fin S1024x2048.rank) ∈ dot_S1024x2048_S2048x256_S1024x256_1_0_0_1_n_n.lhsNonContracting by decide)]
  rfl

theorem dotB_lhs_col (i : S1024x256.Idx) (k : dot_S1024x2048_S2048x256_S1024x256_1_0_0_1_n_n.contr.Idx) :
    (dot_S1024x2048_S2048x256_S1024x256_1_0_0_1_n_n.lhsIdx i k 1).val = (k ⟨0, by decide⟩).val :=
  dot_S1024x2048_S2048x256_S1024x256_1_0_0_1_n_n.lhsIdx_val_of_single rfl i k

theorem dotB_rhs_row (i : S1024x256.Idx) (k : dot_S1024x2048_S2048x256_S1024x256_1_0_0_1_n_n.contr.Idx) :
    (dot_S1024x2048_S2048x256_S1024x256_1_0_0_1_n_n.rhsIdx i k 0).val = (k ⟨0, by decide⟩).val :=
  dot_S1024x2048_S2048x256_S1024x256_1_0_0_1_n_n.rhsIdx_val_of_single rfl i k

theorem dotB_rhs_col (i : S1024x256.Idx) (k : dot_S1024x2048_S2048x256_S1024x256_1_0_0_1_n_n.contr.Idx) :
    (dot_S1024x2048_S2048x256_S1024x256_1_0_0_1_n_n.rhsIdx i k 1).val = (i 1).val := by
  unfold DotDims.rhsIdx
  rw [dif_neg (show ¬(1 : Fin S2048x256.rank) ∈ dot_S1024x2048_S2048x256_S1024x256_1_0_0_1_n_n.rhsBatch by decide),
    dif_pos (show (1 : Fin S2048x256.rank) ∈ dot_S1024x2048_S2048x256_S1024x256_1_0_0_1_n_n.rhsNonContracting by decide)]
  rfl

/-- The product into the zero block, at the entry (p, q): the sum over the 2048 contraction coordinates j of the left
    operand at (p, j) times the right operand at (j, q). The library's sum runs over the contraction shape's indices; its
    one coordinate carries it to a sum over Fin 2048. -/
theorem dotB_matmul_apply {φ₁ φ₂ : FTy} (a : FVec Ideal S1024x2048 φ₁) (b : FVec Ideal S2048x256 φ₂) (p : Fin 1024) (q : Fin 256) :
    FloatOps.matmul dot_S1024x2048_S2048x256_S1024x256_1_0_0_1_n_n none a b (constant S1024x256 .f32 0x00000000#32) (ix2 p q)
      = ∑ j : Fin 2048, a (ix2 p j) * b (ix2 j q) := by
  rw [Ideal.matmul_constant_zero_apply, ← Equiv.sum_comp (contrEquiv1 dot_S1024x2048_S2048x256_S1024x256_1_0_0_1_n_n 2048 rfl rfl).symm]
  refine Finset.sum_congr rfl fun j _ => ?_
  have hj := contrEquiv1_symm_val dot_S1024x2048_S2048x256_S1024x256_1_0_0_1_n_n 2048 rfl rfl j
  have el : dot_S1024x2048_S2048x256_S1024x256_1_0_0_1_n_n.lhsIdx (ix2 p q) ((contrEquiv1 dot_S1024x2048_S2048x256_S1024x256_1_0_0_1_n_n 2048 rfl rfl).symm j) = ix2 p j :=
    funext fun ax => Fin.ext (by
      match ax with
      | ⟨0, _⟩ => exact dotB_lhs_row _ _
      | ⟨1, _⟩ => exact (dotB_lhs_col _ _).trans hj)
  have er : dot_S1024x2048_S2048x256_S1024x256_1_0_0_1_n_n.rhsIdx (ix2 p q) ((contrEquiv1 dot_S1024x2048_S2048x256_S1024x256_1_0_0_1_n_n 2048 rfl rfl).symm j) = ix2 j q :=
    funext fun ax => Fin.ext (by
      match ax with
      | ⟨0, _⟩ => exact (dotB_rhs_row _ _).trans hj
      | ⟨1, _⟩ => exact dotB_rhs_col _ _)
  rw [el, er]

/-- A column of shape [a, 1] broadcast to [a, b] reads, at (p, c), the column's entry of row p: the row axis is kept
    (or has extent one, where p is 0 anyway) and the unit axis is read at 0. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The first kernel: a 2048 by 256 block of features times the whole weight -/

/-- The reset value is zero everywhere. -/
theorem pay0_1_apply (j : S2048x256.Idx) : (k0_pay1 (F := Ideal)) j = 0 := by
  unfold k0_pay1
  rw [shapeCast_self]
  exact Ideal.ofBits_zero_f32

/-- One step: the running block plus the product of the two loaded blocks, entry by entry. -/
theorem pay0_2_apply (x0 : Vec Ideal S2048x256 .f32) (x1 : Vec Ideal S256x256 .f32) (xs : Vec Ideal S2048x256 .f32)
    (p : Fin 2048) (q : Fin 256) :
    k0_pay2 (F := Ideal) x0 x1 xs (ix2 p q) = xs (ix2 p q) + ∑ j : Fin 256, x0 (ix2 p j) * x1 (ix2 j q) := by
  unfold k0_pay2
  rw [shapeCast_self, addf_apply]
  refine congrArg (xs (ix2 p q) + ·) ?_
  exact dotA_matmul_apply _ _ p q

/-! ## The second kernel: a 1024 by 2048 block times a 2048 by 256 block, then the row scaling -/

/-- The reset value is zero everywhere. -/
theorem pay1_1_apply (j : S1024x256.Idx) : (k1_pay1 (F := Ideal)) j = 0 := by
  unfold k1_pay1
  rw [shapeCast_self]
  exact Ideal.ofBits_zero_f32

/-- One step: the running block plus the product of the two loaded blocks, entry by entry. -/
theorem pay1_2_apply (x0 : Vec Ideal S1024x2048 .f32) (x1 : Vec Ideal S2048x256 .f32) (xs : Vec Ideal S1024x256 .f32)
    (p : Fin 1024) (q : Fin 256) :
    k1_pay2 (F := Ideal) x0 x1 xs (ix2 p q) = xs (ix2 p q) + ∑ j : Fin 2048, x0 (ix2 p j) * x1 (ix2 j q) := by
  unfold k1_pay2
  rw [shapeCast_self, shapeCast_self, addf_apply]
  refine congrArg (xs (ix2 p q) + ·) ?_
  exact dotB_matmul_apply _ _ p q

/-- The last step's stored value: the finished block, row p times the p-th entry of the loaded filter column. -/
theorem pay1_3_apply (a : Vec Ideal S1024x256 .f32) (s : Vec Ideal S1024x1 .f32) (p : Fin 1024) (q : Fin 256) :
    k1_pay3 (F := Ideal) a s (ix2 p q) = a (ix2 p q) * s (ix2 p (0 : Fin 1)) := by
  unfold k1_pay3
  rw [shapeCast_self, mulf_apply]
  refine congrArg (a (ix2 p q) * ·) ?_
  exact broadcastTo_a1_ab_apply s _ p q

/-! ## The third kernel: the second's product without the scaling -/

/-- The reset value is zero everywhere. -/
theorem pay2_1_apply (j : S1024x256.Idx) : (k2_pay1 (F := Ideal)) j = 0 := by
  unfold k2_pay1
  rw [shapeCast_self]
  exact Ideal.ofBits_zero_f32

/-- One step: the running block plus the product of the two loaded blocks, entry by entry. -/
theorem pay2_2_apply (x0 : Vec Ideal S1024x2048 .f32) (x1 : Vec Ideal S2048x256 .f32) (xs : Vec Ideal S1024x256 .f32)
    (p : Fin 1024) (q : Fin 256) :
    k2_pay2 (F := Ideal) x0 x1 xs (ix2 p q) = xs (ix2 p q) + ∑ j : Fin 2048, x0 (ix2 p j) * x1 (ix2 j q) := by
  unfold k2_pay2
  rw [shapeCast_self, shapeCast_self, addf_apply]
  refine congrArg (xs (ix2 p q) + ·) ?_
  exact dotB_matmul_apply _ _ p q

end Cert.Wavelet.Pay

end
-- ==== Proof.Spec.lean ====
/-
  The mathematics of the layer, stated once over the extended reals and over no program: a graph-wavelet layer is
  three matrix products with a row scaling between the second and the third,
      out = Ψ · (diag s · (Ψ⁻¹ · (X · W))),
  every product an exact sum of exact products. Both programs are shown to compute this one function, layer.
  Beside it, the one fact about sums that a contraction cut into four consecutive stretches of 2048 terms needs:
  the running total over the stretches passed (upTo) starts at zero, grows by one stretch at a time and ends at
  the whole sum. Only associativity and commutativity of addition are used, so infinite entries do no harm.
-/
import Idealize.ShloMosaic.PureOps.Ideal
import Idealize.ShloMosaic.Lib.ValueIdx

noncomputable section

open scoped BigOperators

namespace Cert.Wavelet

open Idealize.ShloMosaic Idealize.ShloMosaic.ValueIdx

/-- Node features and every intermediate: 8192 nodes by 256 channels. -/
abbrev SNxC : Shape := ⟨2, ![8192, 256]⟩
/-- The wavelet basis and its inverse: 8192 by 8192. -/
abbrev SNxN : Shape := ⟨2, ![8192, 8192]⟩
/-- The channel-mixing weight: 256 by 256. -/
abbrev SCxC : Shape := ⟨2, ![256, 256]⟩
/-- The spectral filter: one factor per node. -/
abbrev SN : Shape := ⟨1, ![8192]⟩

/-- Features times weight: entry (r, q) is the sum over the 256 input channels k of X(r, k) · W(k, q). -/
def mulW (X : FVec Ideal SNxC .f32) (W : FVec Ideal SCxC .f32) : FVec Ideal SNxC .f32 :=
  fun i => ∑ k : Fin 256, X (ix2 (i 0) k) * W (ix2 k (i 1))

/-- A node-by-node matrix times a node-by-channel one: entry (r, q) is the sum over the 8192 nodes k of A(r, k) · B(k, q). -/
def mulN (A : FVec Ideal SNxN .f32) (B : FVec Ideal SNxC .f32) : FVec Ideal SNxC .f32 :=
  fun i => ∑ k : Fin 8192, A (ix2 (i 0) k) * B (ix2 k (i 1))

/-- Row r scaled by the filter's r-th factor. -/
def scaleRows (s : FVec Ideal SN .f32) (B : FVec Ideal SNxC .f32) : FVec Ideal SNxC .f32 :=
  fun i => s (ix1 (i 0)) * B i

/-- The layer: Ψ · (diag s · (Ψ⁻¹ · (X · W))). -/
def layer (X : FVec Ideal SNxC .f32) (Psi PsiInv : FVec Ideal SNxN .f32) (W : FVec Ideal SCxC .f32)
    (s : FVec Ideal SN .f32) : FVec Ideal SNxC .f32 :=
  mulN Psi (scaleRows s (mulN PsiInv (mulW X W)))

/-! ## A sum of 8192 terms taken in four stretches of 2048 -/

/-- The total of the terms whose position lies in the first n stretches of 2048. -/
def upTo (f : Fin 8192 → EReal) (n : ℕ) : EReal := ∑ J : Fin 8192, if J.val < n * 2048 then f J else 0

/-- Before any stretch the total is zero. -/
theorem upTo_zero (f : Fin 8192 → EReal) : upTo f 0 = 0 := by
  unfold upTo
  refine Finset.sum_eq_zero fun J _ => ?_
  rw [if_neg (by omega)]

/-- One more stretch adds exactly its 2048 terms. -/
theorem upTo_succ (f : Fin 8192 → EReal) (k : ℕ) (hk : k < 4) :
    upTo f (k + 1) = upTo f k + ∑ j : Fin 2048, f ⟨k * 2048 + j.val, by omega⟩ := by
  -- the new stretch, written as a sum over all 8192 positions with the other positions contributing zero
  have hmid : (∑ j : Fin 2048, f ⟨k * 2048 + j.val, by omega⟩)
      = ∑ J : Fin 8192, if k * 2048 ≤ J.val ∧ J.val < (k + 1) * 2048 then f J else 0 := by
    rw [← Finset.sum_filter]
    refine Finset.sum_bij (fun j _ => (⟨k * 2048 + j.val, by omega⟩ : Fin 8192)) ?_ ?_ ?_ ?_
    · intro j _
      rw [Finset.mem_filter]
      refine ⟨Finset.mem_univ _, ?_⟩
      have := j.isLt
      constructor
      · show k * 2048 ≤ k * 2048 + j.val
        omega
      · show k * 2048 + j.val < (k + 1) * 2048
        omega
    · intro a _ b _ hab
      have h := congrArg Fin.val hab
      simp only at h
      exact Fin.ext (by omega)
    · intro J hJ
      rw [Finset.mem_filter] at hJ
      obtain ⟨_, h1, h2⟩ := hJ
      refine ⟨⟨J.val - k * 2048, by omega⟩, Finset.mem_univ _, ?_⟩
      apply Fin.ext
      show k * 2048 + (J.val - k * 2048) = J.val
      omega
    · intro j _
      rfl
  unfold upTo
  rw [hmid, ← Finset.sum_add_distrib]
  refine Finset.sum_congr rfl fun J _ => ?_
  by_cases h1 : J.val < k * 2048
  · have h2 : J.val < (k + 1) * 2048 := by omega
    have h3 : ¬ (k * 2048 ≤ J.val ∧ J.val < (k + 1) * 2048) := by omega
    rw [if_pos h1, if_pos h2, if_neg h3, add_zero]
  · by_cases h2 : J.val < (k + 1) * 2048
    · have h3 : k * 2048 ≤ J.val ∧ J.val < (k + 1) * 2048 := ⟨by omega, h2⟩
      rw [if_neg h1, if_pos h2, if_pos h3, zero_add]
    · have h3 : ¬ (k * 2048 ≤ J.val ∧ J.val < (k + 1) * 2048) := by omega
      rw [if_neg h1, if_neg h2, if_neg h3, add_zero]

/-- After the fourth stretch the total is the whole sum. -/
theorem upTo_four (f : Fin 8192 → EReal) : upTo f 4 = ∑ J : Fin 8192, f J := by
  unfold upTo
  refine Finset.sum_congr rfl fun J _ => ?_
  rw [if_pos (by have := J.isLt; omega)]

end Cert.Wavelet

end
-- ==== Proof.KernelIdeal.R0Value.lean ====
/-
  What the first kernel leaves in its result array, over the extended reals: the features times the weight. Point t
  computes rows 2048·t to 2048·t + 2047 in one step, from a zero block, and writes them back; the four blocks tile the
  array.
-/
import proofs.«124954_j13383118094872_1_alg».proof.Proof.KernelIdeal.R0Defs
import proofs.«124954_j13383118094872_1_alg».proof.Proof.Payloads
import proofs.«124954_j13383118094872_1_alg».proof.Proof.Spec
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## Where the windows' blocks sit -/

/-- The grid has four points. -/
theorem pt_lt0 (t : Fin cfg0.N) : t.val < 4 := by
  have h : t.val < grid0.N := t.isLt
  rw [N_0] at h
  exact h

/-- The block indices at point t, decided over the four points: the features' and the result's block is row block t,
    the weight's block is the whole weight. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, j) of the features' block at point t is entry (2048·t + p, j) of the features. -/
theorem blkA0_apply (c : Dev nD) (t : Fin cfg0.N) (p : Fin 2048) (j : Fin 256) :
    blkA0 V c t (ix2 p j)
      = (V c main_arg0 : FVec Ideal Cert.Wavelet.SNxC .f32) (ix2 (⟨2048 * t.val + p.val, by have := pt_lt0 t; omega⟩ : Fin 8192) j) := by
  obtain ⟨e0, e1, -, -, -, -⟩ := idx0 t
  unfold blkA0 iblk0
  rw [View.read_apply]
  show V c main_arg0 _ = V c main_arg0 _
  refine congrArg (V c main_arg0) ?_
  funext a
  apply Fin.ext
  match a with
  | ⟨0, _⟩ => show win0_0.index t (0 : Fin 2) * 2048 + 1 * p.val = 2048 * t.val + p.val; omega
  | ⟨1, _⟩ => show win0_0.index t (1 : Fin 2) * 256 + 1 * j.val = j.val; omega

/-- The weight's block at every point is the weight. -/
theorem blkB0_apply (c : Dev nD) (t : Fin cfg0.N) (j : Fin 256) (q : Fin 256) :
    blkB0 V c t (ix2 j q) = (V c main_arg3 : FVec Ideal Cert.Wavelet.SCxC .f32) (ix2 j q) := by
  obtain ⟨-, -, e2, e3, -, -⟩ := idx0 t
  unfold blkB0 iblk0
  rw [View.read_apply]
  show V c main_arg3 _ = V c main_arg3 _
  refine congrArg (V c main_arg3) ?_
  funext a
  apply Fin.ext
  match a with
  | ⟨0, _⟩ => show win0_1.index t (0 : Fin 2) * 256 + 1 * j.val = j.val; omega
  | ⟨1, _⟩ => show win0_1.index t (1 : Fin 2) * 256 + 1 * q.val = q.val; omega

/-! ## What a point computes -/

/-- Entry (p, q) of what point t leaves: zero plus the one product, which is entry (2048·t + p, q) of the features times
    the weight. -/
theorem acc0_apply (c : Dev nD) (t : Fin cfg0.N) (p : Fin 2048) (q : Fin 256) :
    acc0 V c t (ix2 p q)
      = Cert.Wavelet.mulW (V c main_arg0) (V c main_arg3) (ix2 (⟨2048 * t.val + p.val, by have := pt_lt0 t; omega⟩ : Fin 8192) q) := by
  unfold acc0
  refine (Cert.Wavelet.Pay.pay0_2_apply _ _ _ p q).trans ?_
  rw [Cert.Wavelet.Pay.pay0_1_apply, zero_add]
  unfold Cert.Wavelet.mulW
  refine Finset.sum_congr rfl fun j _ => ?_
  rw [blkA0_apply, blkB0_apply]

/-! ## The four blocks tile the array -/

/-- What point t writes back is block t of the features times the weight. -/
theorem flushed0_eq (c : Dev nD) (t : Fin cfg0.N) :
    (dat0 V c).flushed 2 t
      = ((cfg0.win 2).blk t).view.read (Elt Ideal) (Cert.Wavelet.mulW (V c main_arg0) (V c main_arg3)) := by
  obtain ⟨-, -, -, -, e4, e5⟩ := idx0 t
  show (cfg0.win 2).cut (grid0.coords t) ((dat0 V c).after 2 t) = _
  rw [after0_2]
  funext y
  have h0 : (y 0).val < 2048 := (y 0).isLt
  have h1 : (y 1).val < 256 := (y 1).isLt
  have e : (cfg0.win 2).xinj (grid0.coords t) y = ix2 (⟨(y 0).val, h0⟩ : Fin 2048) (⟨(y 1).val, h1⟩ : Fin 256) :=
    funext fun a => by
      match a with
      | ⟨0, _⟩ => rfl
      | ⟨1, _⟩ => rfl
  refine (congrArg (acc0 V c t) e).trans ?_
  rw [acc0_apply, View.read_apply]
  show Cert.Wavelet.mulW (V c main_arg0) (V c main_arg3) _ = Cert.Wavelet.mulW (V c main_arg0) (V c main_arg3) _
  refine congrArg (Cert.Wavelet.mulW (V c main_arg0) (V c main_arg3)) ?_
  funext a
  apply Fin.ext
  match a with
  | ⟨0, _⟩ => show 2048 * t.val + (y 0).val = win0_2.index t (0 : Fin 2) * 2048 + 1 * (y 0).val; omega
  | ⟨1, _⟩ => show (y 1).val = win0_2.index t (1 : Fin 2) * 256 + 1 * (y 1).val; omega

/-- An entry of the array is in point t's block when each coordinate is in the block's range on its axis. -/
theorem mem_blk0 (t : Fin cfg0.N) (i : S8192x256.Idx) :
    i ∈ ((cfg0.win 2).blk t).view.set
      ↔ ∀ a : Fin 2, win0_2.index t a * S2048x256.size a ≤ (i a).val
          ∧ (i a).val < win0_2.index t a * S2048x256.size a + S2048x256.size a := by
  show i ∈ ((View.whole main_v0).slice (win0_2.rect t)).set ↔ _
  rw [View.set_slice_whole, Rect.mem_set_unit]
  exact Iff.rfl

/-- Row r lies in the block of point r / 2048, and every point writes its block back. -/
theorem cover0 (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  obtain ⟨t, ht⟩ : ∃ t : Fin cfg0.N, t.val = (i 0).val / 2048 :=
    ⟨⟨(i 0).val / 2048, by rw [show cfg0.N = 4 from N_0]; omega⟩, rfl⟩
  obtain ⟨-, -, -, -, e4, e5⟩ := idx0 t
  refine ⟨t, flush0_2 t, ?_⟩
  rw [mem_blk0]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 256 ≤ (i 1).val ∧ (i 1).val < win0_2.index t (1 : Fin 2) * 256 + 256
    omega

/-- The result array after the region: entry (r, q) is the sum over the 256 input channels k of X(r, k) · W(k, q). -/
theorem final0 (c : Dev nD) :
    (dat0 (F := Ideal) V c).arrAt 2 cfg0.N = Cert.Wavelet.mulW (V c main_arg0) (V c main_arg3) := by
  exact (dat0 V c).arrAt_eq_of_cover 2 _ (fun t _ => flushed0_eq V c t) cover0

end Cert.KernelIdeal.Hand

end
-- ==== Proof.KernelIdeal.R1Value.lean ====
/-
  What the second kernel leaves in its result array, over the extended reals: row block i of the product of the
  inverse wavelet matrix with the transformed features, each row scaled by its filter factor. Point 4·i + k adds to
  the running block the k-th stretch of 2048 terms of every entry's sum, starting from zero at k = 0; after k = 3
  the sum is whole, and that point alone writes a block back.
-/
import proofs.«124954_j13383118094872_1_alg».proof.Proof.KernelIdeal.R1Defs
import proofs.«124954_j13383118094872_1_alg».proof.Proof.Payloads
import proofs.«124954_j13383118094872_1_alg».proof.Proof.Spec
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## Where the blocks sit

Point t = 4·i + k shows rows of block i and columns of stretch k of the left matrix, rows of stretch k of the right
one, and rows of block i of the filter column and of the result. -/

/-- The windows' block indices at every point of the grid. -/
theorem idx1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = t.val / 4 ∧ win1_3.index t (1 : Fin 2) = 0 :=
  (by decide +kernel : ∀ t : Fin grid1.N, _)

/-- The grid has 32 points. -/
theorem lt32 (t : Fin cfg1.N) : t.val < 32 := t.isLt

/-- The left block at (p, j) is the left matrix at row 1024·i + p and column 2048·k + j. -/
theorem blkA1_apply (c : Dev nD) (t : Fin cfg1.N) (p : Fin 1024) (j : Fin 2048) (r J : Fin 8192)
    (hr : r.val = t.val / 4 * 1024 + p.val) (hJ : J.val = t.val % 4 * 2048 + j.val) :
    blkA1 V c t (ix2 p j) = V c main_arg2 (ix2 r J) := by
  obtain ⟨e0, e1, -⟩ := idx1 t
  show V c main_arg2 (((cfg1.win 0).blk t).view.emb (ix2 p j)) = _
  refine congrArg (V c main_arg2) ?_
  funext a; apply Fin.ext
  match a with
  | ⟨0, _⟩ => show win1_0.index t (0 : Fin 2) * 1024 + 1 * p.val = r.val; omega
  | ⟨1, _⟩ => show win1_0.index t (1 : Fin 2) * 2048 + 1 * j.val = J.val; omega

/-- The right block at (j, q) is the right matrix at row 2048·k + j and column q. -/
theorem blkB1_apply (c : Dev nD) (t : Fin cfg1.N) (j : Fin 2048) (q : Fin 256) (J : Fin 8192)
    (hJ : J.val = t.val % 4 * 2048 + j.val) :
    blkB1 V c t (ix2 j q) = V c main_v0 (ix2 J q) := by
  obtain ⟨-, -, e0, e1, -⟩ := idx1 t
  show V c main_v0 (((cfg1.win 1).blk t).view.emb (ix2 j q)) = _
  refine congrArg (V c main_v0) ?_
  funext a; apply Fin.ext
  match a with
  | ⟨0, _⟩ => show win1_1.index t (0 : Fin 2) * 2048 + 1 * j.val = J.val; omega
  | ⟨1, _⟩ => show win1_1.index t (1 : Fin 2) * 256 + 1 * q.val = q.val; omega

/-- The filter block at (p, 0) is the filter column at row 1024·i + p. -/
theorem blkS1_apply (c : Dev nD) (t : Fin cfg1.N) (p : Fin 1024) (r : Fin 8192)
    (hr : r.val = t.val / 4 * 1024 + p.val) :
    blkS1 V c t (ix2 p (0 : Fin 1)) = V c main_v1 (ix2 r (0 : Fin 1)) := by
  obtain ⟨-, -, -, -, e0, e1, -⟩ := idx1 t
  show V c main_v1 (((cfg1.win 2).blk t).view.emb (ix2 p (0 : Fin 1))) = _
  refine congrArg (V c main_v1) ?_
  funext a; apply Fin.ext
  match a with
  | ⟨0, _⟩ => show win1_2.index t (0 : Fin 2) * 1024 + 1 * p.val = r.val; omega
  | ⟨1, _⟩ => show win1_2.index t (1 : Fin 2) * 1 + 1 * (0 : Fin 1).val = (0 : Fin 1).val; omega

/-! ## The running product is a partial sum -/

/-- The J-th term of the sum that is entry (r, q) of a product of a node-by-node matrix with a node-by-channel one. -/
def term (A : FVec Ideal Cert.Wavelet.SNxN .f32) (B : FVec Ideal Cert.Wavelet.SNxC .f32) (r : Fin 8192) (q : Fin 256)
    (J : Fin 8192) : EReal :=
  A (ix2 r J) * B (ix2 J q)

/-- One step of the body at point t, at the entry (p, q) of the block: what the block held plus the terms of stretch k
    of the sum of entry (1024·i + p, q). -/
theorem step1 (c : Dev nD) (t : Fin cfg1.N) (xs : Vec Ideal S1024x256 .f32) (p : Fin 1024) (q : Fin 256) (r : Fin 8192)
    (hr : r.val = t.val / 4 * 1024 + p.val) :
    k1_pay2 (F := Ideal) (blkA1 V c t) (blkB1 V c t) xs (ix2 p q)
      = xs (ix2 p q) + ∑ j : Fin 2048, term (V c main_arg2) (V c main_v0) r q
          ⟨t.val % 4 * 2048 + j.val, by have := j.isLt; omega⟩ := by
  refine (Cert.Wavelet.Pay.pay1_2_apply _ _ xs p q).trans ?_
  refine congrArg (xs (ix2 p q) + ·) (Finset.sum_congr rfl fun j _ => ?_)
  exact congrArg₂ (· * ·) (blkA1_apply V c t p j r ⟨t.val % 4 * 2048 + j.val, by have := j.isLt; omega⟩ hr rfl)
    (blkB1_apply V c t j q ⟨t.val % 4 * 2048 + j.val, by have := j.isLt; omega⟩ rfl)

/-- After the body at point n = 4·i + k the scratch block holds, at (p, q), the total of the first k + 1 stretches of the
    sum of entry (1024·i + p, q). -/
theorem acc1_eq (c : Dev nD) : ∀ (n : ℕ) (hn : n < cfg1.N) (p : Fin 1024) (q : Fin 256) (r : Fin 8192),
    r.val = n / 4 * 1024 + p.val →
    acc1 V c n hn (ix2 p q) = Cert.Wavelet.upTo (term (V c main_arg2) (V c main_v0) r q) (n % 4 + 1) := by
  intro n
  induction n using Nat.strong_induction_on with
  | _ n ih =>
    intro hn p q r hr
    have hf := Cert.Wavelet.upTo_succ (term (V c main_arg2) (V c main_v0) r q) (n % 4) (Nat.mod_lt _ (by decide))
    by_cases h : n % 4 = 0
    · have e1 : acc1 V c n hn = k1_pay2 (blkA1 V c ⟨n, hn⟩) (blkB1 V c ⟨n, hn⟩) (k1_pay1 (F := Ideal)) :=
        acc1_first V c ⟨n, hn⟩ h
      have hz : Cert.Wavelet.upTo (term (V c main_arg2) (V c main_v0) r q) (n % 4) = 0 := by
        rw [h]; exact Cert.Wavelet.upTo_zero _
      rw [e1, step1 V c ⟨n, hn⟩ _ p q r hr, Cert.Wavelet.Pay.pay1_1_apply, hf, hz]
    · have e1 : acc1 V c n hn = k1_pay2 (blkA1 V c ⟨n, hn⟩) (blkB1 V c ⟨n, hn⟩)
          (acc1 V c (n - 1) (Nat.lt_of_le_of_lt (Nat.sub_le _ _) hn)) :=
        acc1_next V c ⟨n, hn⟩ h
      have hk : (n - 1) % 4 + 1 = n % 4 := by omega
      rw [e1, step1 V c ⟨n, hn⟩ _ p q r hr, ih (n - 1) (by omega) _ p q r (by omega), hf, hk]

/-- At a last stretch the sum is whole: the stored block is, at (p, q), entry (1024·i + p, q) of the product times the
    filter factor of row 1024·i + p. -/
theorem out1_apply (c : Dev nD) (t : Fin cfg1.N) (h3 : t.val % 4 = 3) (p : Fin 1024) (q : Fin 256) (r : Fin 8192)
    (hr : r.val = t.val / 4 * 1024 + p.val) :
    out1 V c t (ix2 p q)
      = Cert.Wavelet.mulN (V c main_arg2) (V c main_v0) (ix2 r q) * V c main_v1 (ix2 r (0 : Fin 1)) := by
  unfold out1
  refine (Cert.Wavelet.Pay.pay1_3_apply _ _ p q).trans ?_
  have h4 : t.val % 4 + 1 = 4 := by omega
  rw [acc1_eq V c t.val t.isLt p q r hr, blkS1_apply V c t p r hr, h4, Cert.Wavelet.upTo_four]
  rfl

/-! ## From the blocks to the array -/

/-- The result array as one function of the arrays the region finds. -/
abbrev res1 (c : Dev nD) : FVec Ideal Cert.Wavelet.SNxC .f32 :=
  fun i => Cert.Wavelet.mulN (V c main_arg2) (V c main_v0) i * (V c main_v1) (ix2 (i 0) (0 : Fin 1))

/-- What a last stretch writes back is its block of the result. -/
theorem flushed1_eq (c : Dev nD) (t : Fin cfg1.N) (hf : (cfg1.win 3).flush t = true) :
    (dat1 (F := Ideal) V c).flushed 3 t = ((cfg1.win 3).blk t).view.read (Elt Ideal) (res1 V c) := by
  have h3 : t.val % 4 = 3 := (flush1_3 t).mp hf
  obtain ⟨-, -, -, -, -, -, e0, e1⟩ := idx1 t
  show (cfg1.win 3).cut (grid1.coords t) ((dat1 (F := Ideal) V c).after 3 t) = _
  rw [after1_3]
  funext y
  have hp : (y 0).val < 1024 := (y 0).isLt
  have hq : (y 1).val < 256 := (y 1).isLt
  have ht := lt32 t
  have ex : (cfg1.win 3).xinj (grid1.coords t) y = ix2 (⟨(y 0).val, hp⟩ : Fin 1024) (⟨(y 1).val, hq⟩ : Fin 256) :=
    funext fun a => Fin.ext (by match a with | ⟨0, _⟩ => rfl | ⟨1, _⟩ => rfl)
  have ey : ((cfg1.win 3).blk t).view.emb y
      = ix2 (⟨t.val / 4 * 1024 + (y 0).val, by omega⟩ : Fin 8192) (⟨(y 1).val, hq⟩ : Fin 256) :=
    funext fun a => Fin.ext (by
      match a with
      | ⟨0, _⟩ => show win1_3.index t (0 : Fin 2) * 1024 + 1 * (y 0).val = t.val / 4 * 1024 + (y 0).val; omega
      | ⟨1, _⟩ => show win1_3.index t (1 : Fin 2) * 256 + 1 * (y 1).val = (y 1).val; omega)
  show out1 V c t ((cfg1.win 3).xinj (grid1.coords t) y) = res1 V c (((cfg1.win 3).blk t).view.emb y)
  exact (congrArg (out1 V c t) ex).trans ((out1_apply V c t h3 _ _ _ rfl).trans (congrArg (res1 V c) ey).symm)

/-- An index of the result array is in point t's block iff each coordinate is in the block's range on its axis. -/
theorem mem_blk1_3 (t : Fin cfg1.N) (i : S8192x256.Idx) :
    i ∈ ((cfg1.win 3).blk t).view.set ↔ ∀ a : Fin 2, win1_3.index t a * S1024x256.size a ≤ (i a).val
      ∧ (i a).val < win1_3.index t a * S1024x256.size a + S1024x256.size a := by
  show i ∈ ((View.whole main_v2).slice (win1_3.rect t)).set ↔ _
  rw [View.set_slice_whole, Rect.mem_set_unit]
  exact Iff.rfl

/-- Row r of the result is written back by the last stretch of its row block, point 4·(r / 1024) + 3. -/
theorem cover1_3 (i : S8192x256.Idx) :
    ∃ t : Fin cfg1.N, (cfg1.win 3).flush t = true ∧ i ∈ ((cfg1.win 3).blk t).view.set := by
  have hi0 : (i 0).val < 8192 := (i 0).isLt
  have hi1 : (i 1).val < 256 := (i 1).isLt
  obtain ⟨t, tv⟩ : ∃ t : Fin cfg1.N, t.val = 4 * ((i 0).val / 1024) + 3 :=
    ⟨⟨4 * ((i 0).val / 1024) + 3, by show _ < 32; omega⟩, rfl⟩
  obtain ⟨-, -, -, -, -, -, e0, e1⟩ := idx1 t
  refine ⟨t, (flush1_3 t).mpr (by omega), ?_⟩
  rw [mem_blk1_3]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 256 ≤ (i 1).val ∧ (i 1).val < win1_3.index t (1 : Fin 2) * 256 + 256
    omega

/-- The result array after the region: entry (r, q) is the r-th filter factor times the sum over the 8192 nodes J of
    left(r, J) · right(J, q). -/
theorem final1 (c : Dev nD) :
    (dat1 (F := Ideal) V c).arrAt 3 cfg1.N
      = (fun i => Cert.Wavelet.mulN (V c main_arg2) (V c main_v0) i * (V c main_v1) (ix2 (i 0) (0 : Fin 1))) :=
  (dat1 (F := Ideal) V c).arrAt_eq_of_cover 3 (res1 V c) (fun t hf => flushed1_eq V c t hf) cover1_3

end Cert.KernelIdeal.Hand

end
-- ==== Proof.KernelIdeal.R2Value.lean ====
/-
  What the third kernel leaves in its result array, over the extended reals: the wavelet matrix times the filtered
  spectrum. Point 4·i + k adds to the running block the k-th stretch of 2048 terms of every entry's sum, starting
  from zero at k = 0; after k = 3 the sum is whole, and that point alone writes a block back.
-/
import proofs.«124954_j13383118094872_1_alg».proof.Proof.KernelIdeal.R2Defs
import proofs.«124954_j13383118094872_1_alg».proof.Proof.Payloads
import proofs.«124954_j13383118094872_1_alg».proof.Proof.Spec
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## Where the blocks sit

Point t = 4·i + k shows rows of block i and columns of stretch k of the left matrix, rows of stretch k of the right
one, and rows of block i of the result. -/

/-- The windows' block indices at every point of the grid. -/
theorem idx2 : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0 :=
  (by decide +kernel : ∀ t : Fin grid2.N, _)

/-- The grid has 32 points. -/
theorem pts2_lt (t : Fin cfg2.N) : t.val < 32 := t.isLt

/-- The left block at (p, j) is the left matrix at row 1024·i + p and column 2048·k + j. -/
theorem blkA2_apply (c : Dev nD) (t : Fin cfg2.N) (p : Fin 1024) (j : Fin 2048) (r J : Fin 8192)
    (hr : r.val = t.val / 4 * 1024 + p.val) (hJ : J.val = t.val % 4 * 2048 + j.val) :
    blkA2 V c t (ix2 p j) = V c main_arg1 (ix2 r J) := by
  obtain ⟨e0, e1, -⟩ := idx2 t
  show V c main_arg1 (((cfg2.win 0).blk t).view.emb (ix2 p j)) = _
  refine congrArg (V c main_arg1) ?_
  funext a; apply Fin.ext
  match a with
  | ⟨0, _⟩ => show win2_0.index t (0 : Fin 2) * 1024 + 1 * p.val = r.val; omega
  | ⟨1, _⟩ => show win2_0.index t (1 : Fin 2) * 2048 + 1 * j.val = J.val; omega

/-- The right block at (j, q) is the right matrix at row 2048·k + j and column q. -/
theorem blkB2_apply (c : Dev nD) (t : Fin cfg2.N) (j : Fin 2048) (q : Fin 256) (J : Fin 8192)
    (hJ : J.val = t.val % 4 * 2048 + j.val) :
    blkB2 V c t (ix2 j q) = V c main_v2 (ix2 J q) := by
  obtain ⟨-, -, e0, e1, -⟩ := idx2 t
  show V c main_v2 (((cfg2.win 1).blk t).view.emb (ix2 j q)) = _
  refine congrArg (V c main_v2) ?_
  funext a; apply Fin.ext
  match a with
  | ⟨0, _⟩ => show win2_1.index t (0 : Fin 2) * 2048 + 1 * j.val = J.val; omega
  | ⟨1, _⟩ => show win2_1.index t (1 : Fin 2) * 256 + 1 * q.val = q.val; omega

/-! ## The running product is a partial sum -/

/-- The J-th term of the sum that is entry (r, q) of a product of a node-by-node matrix with a node-by-channel one. -/
def term2 (A : FVec Ideal Cert.Wavelet.SNxN .f32) (B : FVec Ideal Cert.Wavelet.SNxC .f32) (r : Fin 8192) (q : Fin 256)
    (J : Fin 8192) : EReal :=
  A (ix2 r J) * B (ix2 J q)

/-- One step of the body at point t, at the entry (p, q) of the block: what the block held plus the terms of stretch k
    of the sum of entry (1024·i + p, q). -/
theorem step2 (c : Dev nD) (t : Fin cfg2.N) (xs : Vec Ideal S1024x256 .f32) (p : Fin 1024) (q : Fin 256) (r : Fin 8192)
    (hr : r.val = t.val / 4 * 1024 + p.val) :
    k2_pay2 (F := Ideal) (blkA2 V c t) (blkB2 V c t) xs (ix2 p q)
      = xs (ix2 p q) + ∑ j : Fin 2048, term2 (V c main_arg1) (V c main_v2) r q
          ⟨t.val % 4 * 2048 + j.val, by have := j.isLt; omega⟩ := by
  refine (Cert.Wavelet.Pay.pay2_2_apply _ _ xs p q).trans ?_
  refine congrArg (xs (ix2 p q) + ·) (Finset.sum_congr rfl fun j _ => ?_)
  exact congrArg₂ (· * ·) (blkA2_apply V c t p j r ⟨t.val % 4 * 2048 + j.val, by have := j.isLt; omega⟩ hr rfl)
    (blkB2_apply V c t j q ⟨t.val % 4 * 2048 + j.val, by have := j.isLt; omega⟩ rfl)

/-- After the body at point n = 4·i + k the scratch block holds, at (p, q), the total of the first k + 1 stretches of the
    sum of entry (1024·i + p, q). -/
theorem acc2_eq (c : Dev nD) : ∀ (n : ℕ) (hn : n < cfg2.N) (p : Fin 1024) (q : Fin 256) (r : Fin 8192),
    r.val = n / 4 * 1024 + p.val →
    acc2 V c n hn (ix2 p q) = Cert.Wavelet.upTo (term2 (V c main_arg1) (V c main_v2) r q) (n % 4 + 1) := by
  intro n
  induction n using Nat.strong_induction_on with
  | _ n ih =>
    intro hn p q r hr
    have hf := Cert.Wavelet.upTo_succ (term2 (V c main_arg1) (V c main_v2) r q) (n % 4) (Nat.mod_lt _ (by decide))
    by_cases h : n % 4 = 0
    · have e1 : acc2 V c n hn = k2_pay2 (blkA2 V c ⟨n, hn⟩) (blkB2 V c ⟨n, hn⟩) (k2_pay1 (F := Ideal)) :=
        acc2_first V c ⟨n, hn⟩ h
      have hz : Cert.Wavelet.upTo (term2 (V c main_arg1) (V c main_v2) r q) (n % 4) = 0 := by
        rw [h]; exact Cert.Wavelet.upTo_zero _
      rw [e1, step2 V c ⟨n, hn⟩ _ p q r hr, Cert.Wavelet.Pay.pay2_1_apply, hf, hz]
    · have e1 : acc2 V c n hn = k2_pay2 (blkA2 V c ⟨n, hn⟩) (blkB2 V c ⟨n, hn⟩)
          (acc2 V c (n - 1) (Nat.lt_of_le_of_lt (Nat.sub_le _ _) hn)) :=
        acc2_next V c ⟨n, hn⟩ h
      have hk : (n - 1) % 4 + 1 = n % 4 := by omega
      rw [e1, step2 V c ⟨n, hn⟩ _ p q r hr, ih (n - 1) (by omega) _ p q r (by omega), hf, hk]

/-- At a last stretch the sum is whole: the stored block is, at (p, q), entry (1024·i + p, q) of the product. -/
theorem out2_apply (c : Dev nD) (t : Fin cfg2.N) (h3 : t.val % 4 = 3) (p : Fin 1024) (q : Fin 256) (r : Fin 8192)
    (hr : r.val = t.val / 4 * 1024 + p.val) :
    out2 V c t (ix2 p q) = Cert.Wavelet.mulN (V c main_arg1) (V c main_v2) (ix2 r q) := by
  unfold out2
  have h4 : t.val % 4 + 1 = 4 := by omega
  rw [acc2_eq V c t.val t.isLt p q r hr, h4, Cert.Wavelet.upTo_four]
  rfl

/-! ## From the blocks to the array -/

/-- The result array as one function of the arrays the region finds. -/
abbrev res2 (c : Dev nD) : FVec Ideal Cert.Wavelet.SNxC .f32 :=
  Cert.Wavelet.mulN (V c main_arg1) (V c main_v2)

/-- What a last stretch writes back is its block of the result. -/
theorem flushed2_eq (c : Dev nD) (t : Fin cfg2.N) (hf : (cfg2.win 2).flush t = true) :
    (dat2 (F := Ideal) V c).flushed 2 t = ((cfg2.win 2).blk t).view.read (Elt Ideal) (res2 V c) := by
  have h3 : t.val % 4 = 3 := (flush2_2 t).mp hf
  obtain ⟨-, -, -, -, e0, e1⟩ := idx2 t
  show (cfg2.win 2).cut (grid2.coords t) ((dat2 (F := Ideal) V c).after 2 t) = _
  rw [after2_2]
  funext y
  have hp : (y 0).val < 1024 := (y 0).isLt
  have hq : (y 1).val < 256 := (y 1).isLt
  have ht := pts2_lt t
  have ex : (cfg2.win 2).xinj (grid2.coords t) y = ix2 (⟨(y 0).val, hp⟩ : Fin 1024) (⟨(y 1).val, hq⟩ : Fin 256) :=
    funext fun a => Fin.ext (by match a with | ⟨0, _⟩ => rfl | ⟨1, _⟩ => rfl)
  have ey : ((cfg2.win 2).blk t).view.emb y
      = ix2 (⟨t.val / 4 * 1024 + (y 0).val, by omega⟩ : Fin 8192) (⟨(y 1).val, hq⟩ : Fin 256) :=
    funext fun a => Fin.ext (by
      match a with
      | ⟨0, _⟩ => show win2_2.index t (0 : Fin 2) * 1024 + 1 * (y 0).val = t.val / 4 * 1024 + (y 0).val; omega
      | ⟨1, _⟩ => show win2_2.index t (1 : Fin 2) * 256 + 1 * (y 1).val = (y 1).val; omega)
  show out2 V c t ((cfg2.win 2).xinj (grid2.coords t) y) = res2 V c (((cfg2.win 2).blk t).view.emb y)
  exact (congrArg (out2 V c t) ex).trans ((out2_apply V c t h3 _ _ _ rfl).trans (congrArg (res2 V c) ey).symm)

/-- An index of the result array is in point t's block iff each coordinate is in the block's range on its axis. -/
theorem mem_blk2_2 (t : Fin cfg2.N) (i : S8192x256.Idx) :
    i ∈ ((cfg2.win 2).blk t).view.set ↔ ∀ a : Fin 2, win2_2.index t a * S1024x256.size a ≤ (i a).val
      ∧ (i a).val < win2_2.index t a * S1024x256.size a + S1024x256.size a := by
  show i ∈ ((View.whole main_v3).slice (win2_2.rect t)).set ↔ _
  rw [View.set_slice_whole, Rect.mem_set_unit]
  exact Iff.rfl

/-- Row r of the result is written back by the last stretch of its row block, point 4·(r / 1024) + 3. -/
theorem cover2_2 (i : S8192x256.Idx) :
    ∃ t : Fin cfg2.N, (cfg2.win 2).flush t = true ∧ i ∈ ((cfg2.win 2).blk t).view.set := by
  have hi0 : (i 0).val < 8192 := (i 0).isLt
  have hi1 : (i 1).val < 256 := (i 1).isLt
  obtain ⟨t, tv⟩ : ∃ t : Fin cfg2.N, t.val = 4 * ((i 0).val / 1024) + 3 :=
    ⟨⟨4 * ((i 0).val / 1024) + 3, by show _ < 32; omega⟩, rfl⟩
  obtain ⟨-, -, -, -, e0, e1⟩ := idx2 t
  refine ⟨t, (flush2_2 t).mpr (by omega), ?_⟩
  rw [mem_blk2_2]
  intro a
  match a with
  | ⟨0, _⟩ =>
    show win2_2.index t (0 : Fin 2) * 1024 ≤ (i 0).val ∧ (i 0).val < win2_2.index t (0 : Fin 2) * 1024 + 1024
    omega
  | ⟨1, _⟩ =>
    show win2_2.index t (1 : Fin 2) * 256 ≤ (i 1).val ∧ (i 1).val < win2_2.index t (1 : Fin 2) * 256 + 256
    omega

/-- The result array after the region: entry (r, q) is the sum over the 8192 nodes J of left(r, J) · right(J, q). -/
theorem final2 (c : Dev nD) :
    (dat2 (F := Ideal) V c).arrAt 2 cfg2.N = Cert.Wavelet.mulN (V c main_arg1) (V c main_v2) :=
  (dat2 (F := Ideal) V c).arrAt_eq_of_cover 2 (res2 V c) (fun t hf => flushed2_eq V c t hf) cover2_2

end Cert.KernelIdeal.Hand

end
-- ==== Proof.KernelIdeal.Chain.lean ====
/-
  The idealized kernel program computes the layer: its result buffer at the return, followed back through the three
  kernel regions and the one host operation, is the product of the wavelet matrix with the row-scaled product of the
  inverse wavelet matrix with features times weight.
-/
import proofs.«124954_j13383118094872_1_alg».proof.Proof.KernelIdeal.RunDefs
import proofs.«124954_j13383118094872_1_alg».proof.Proof.KernelIdeal.R0Value
import proofs.«124954_j13383118094872_1_alg».proof.Proof.KernelIdeal.R1Value
import proofs.«124954_j13383118094872_1_alg».proof.Proof.KernelIdeal.R2Value
import proofs.«124954_j13383118094872_1_alg».proof.Proof.Spec
import Idealize.ShloMosaic.Lib.StableHlo.Run

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## The filter column -/

/-- The column the second kernel reads is the launch filter reshaped: its entry (r, 0) is the r-th factor. -/
theorem W2_main_v1_apply (c : Dev nD) (r : Fin 8192) :
    W2 (F := Ideal) m ρ c (Proc.devRef .tc main_v1) (ix2 r (0 : Fin 1))
      = m ((c : Thread nD τ).loc main_arg4) (ix1 r) := by
  have e : (W2 (F := Ideal) m ρ c (Proc.devRef .tc main_v1) : S8192x1.Idx → EReal)
      = shapeCast S8192x1 (W1 (F := Ideal) m ρ c (Proc.devRef .tc main_arg4)) Facts₀.shapeCasts_S8192_S8192x1 := by
    dsimp only [W2, hostOps1]; after_results; rfl
  have e4 : W1 (F := Ideal) m ρ c (Proc.devRef .tc main_arg4) = m ((c : Thread nD τ).loc main_arg4) :=
    (W1_of_ne m ρ c main_arg4 (by decide)).trans rfl
  refine (congrFun e (ix2 r (0 : Fin 1))).trans ?_
  refine (shapeCast_apply (s := S8192) (t := S8192x1) _ _ (ix2 r (0 : Fin 1)) (ix1 r) ?_).trans (congrFun e4 (ix1 r))
  rw [Shape.rowMajor_val_one, Shape.rowMajor_val_two]
  show r.val = r.val * 1 + 0
  omega

/-! ## The result buffer, region by region -/

/-- The result buffer at the return holds the layer of the five launch arrays. -/
theorem W4_main_v3
    (c : Dev nD) :
    W4 (F := Ideal) m ρ c (Proc.devRef .tc main_v3)
      = Cert.Wavelet.layer (m ((c : Thread nD τ).loc main_arg0)) (m ((c : Thread nD τ).loc main_arg1)) (m ((c : Thread nD τ).loc main_arg2))
          (m ((c : Thread nD τ).loc main_arg3)) (m ((c : Thread nD τ).loc main_arg4)) := by
  -- the wavelet matrix, as the third kernel finds it
  have a1 : V3 (F := Ideal) m ρ c main_arg1 = m ((c : Thread nD τ).loc main_arg1) :=
    calc W3 (F := Ideal) m ρ c (Proc.devRef .tc main_arg1)
      _ = W2 m ρ c (Proc.devRef .tc main_arg1) := W3_of_ne m ρ c main_arg1 (by decide)
      _ = W1 m ρ c (Proc.devRef .tc main_arg1) := W2_of_ne m ρ c main_arg1 (by decide)
      _ = W0 m ρ c (Proc.devRef .tc main_arg1) := W1_of_ne m ρ c main_arg1 (by decide)
      _ = m ((c : Thread nD τ).loc main_arg1) := rfl
  -- the inverse wavelet matrix, as the second kernel finds it
  have a2 : V2 (F := Ideal) m ρ c main_arg2 = m ((c : Thread nD τ).loc main_arg2) :=
    calc W2 (F := Ideal) m ρ c (Proc.devRef .tc main_arg2)
      _ = W1 m ρ c (Proc.devRef .tc main_arg2) := W2_of_ne m ρ c main_arg2 (by decide)
      _ = W0 m ρ c (Proc.devRef .tc main_arg2) := W1_of_ne m ρ c main_arg2 (by decide)
      _ = m ((c : Thread nD τ).loc main_arg2) := rfl
  -- the first kernel's result, as the second kernel finds it: features times weight
  have v0 : V2 (F := Ideal) m ρ c main_v0
      = Cert.Wavelet.mulW (m ((c : Thread nD τ).loc main_arg0)) (m ((c : Thread nD τ).loc main_arg3)) :=
    calc W2 (F := Ideal) m ρ c (Proc.devRef .tc main_v0)
      _ = W1 m ρ c (Proc.devRef .tc main_v0) := W2_of_ne m ρ c main_v0 (by decide)
      _ = (dat0 (V0 m ρ) c).arrAt 2 cfg0.N := W1_arr m ρ c 2
      _ = Cert.Wavelet.mulW (m ((c : Thread nD τ).loc main_arg0)) (m ((c : Thread nD τ).loc main_arg3)) := final0 (V0 m ρ) c
  -- the second kernel's result, as the third kernel finds it: the scaled rows
  have v2 : V3 (F := Ideal) m ρ c main_v2
      = Cert.Wavelet.scaleRows (m ((c : Thread nD τ).loc main_arg4))
          (Cert.Wavelet.mulN (m ((c : Thread nD τ).loc main_arg2))
            (Cert.Wavelet.mulW (m ((c : Thread nD τ).loc main_arg0)) (m ((c : Thread nD τ).loc main_arg3)))) := by
    refine ((W3_arr m ρ c 3).trans (final1 (V2 m ρ) c)).trans ?_
    funext i
    exact (congrArg₂ (· * ·) (congrFun (congrArg₂ Cert.Wavelet.mulN a2 v0) i) (W2_main_v1_apply m ρ c (i 0))).trans
      (mul_comm _ _)
  exact (W4_arr m ρ c 2).trans ((final2 (V3 m ρ) c).trans (congrArg₂ Cert.Wavelet.mulN a1 v2))

end Cert.KernelIdeal.Hand

end
-- ==== Proof.RefValue.lean ====
/-
  The reference program computes the layer: its four host operations after the first product, read one at a time at an
  index, are the sums and the row scaling of the specification.
-/
import proofs.«124954_j13383118094872_1_alg».proof.Proof.Gen.ReferenceIdeal.Read
import proofs.«124954_j13383118094872_1_alg».proof.Proof.Spec

noncomputable section

open scoped BigOperators

namespace Cert.Wavelet.Ref

open Idealize.ShloMosaic Idealize.ShloMosaic.ValueIdx Idealize.ShloMosaic.TcCoe Idealize.SL.Sem
open Cert.ReferenceIdeal Cert.ReferenceIdeal.Gen

/-! ## Where each operation reads its operands

A product reads its left operand at (row of the result, k) and its right operand at (k, column of the result); a
broadcast along the channels reads the row of the result. -/

theorem lidx_v0 (i : S8192x256.Idx) (k : Fin 256) : Read.lidx_main_v0 i k = (ix2 (i 0) k : S8192x256.Idx) :=
  funext fun a => Fin.ext (by match a with | ⟨0, _⟩ => rfl | ⟨1, _⟩ => rfl)
theorem ridx_v0 (i : S8192x256.Idx) (k : Fin 256) : Read.ridx_main_v0 i k = (ix2 k (i 1) : S256x256.Idx) :=
  funext fun a => Fin.ext (by match a with | ⟨0, _⟩ => rfl | ⟨1, _⟩ => rfl)
theorem lidx_v1 (i : S8192x256.Idx) (k : Fin 8192) : Read.lidx_main_v1 i k = (ix2 (i 0) k : S8192x8192.Idx) :=
  funext fun a => Fin.ext (by match a with | ⟨0, _⟩ => rfl | ⟨1, _⟩ => rfl)
theorem ridx_v1 (i : S8192x256.Idx) (k : Fin 8192) : Read.ridx_main_v1 i k = (ix2 k (i 1) : S8192x256.Idx) :=
  funext fun a => Fin.ext (by match a with | ⟨0, _⟩ => rfl | ⟨1, _⟩ => rfl)
theorem lidx_v5 (i : S8192x256.Idx) (k : Fin 8192) : Read.lidx_main_v5 i k = (ix2 (i 0) k : S8192x8192.Idx) :=
  funext fun a => Fin.ext (by match a with | ⟨0, _⟩ => rfl | ⟨1, _⟩ => rfl)
theorem ridx_v5 (i : S8192x256.Idx) (k : Fin 8192) : Read.ridx_main_v5 i k = (ix2 k (i 1) : S8192x256.Idx) :=
  funext fun a => Fin.ext (by match a with | ⟨0, _⟩ => rfl | ⟨1, _⟩ => rfl)
theorem idx_v32 (i : S8192x256.Idx) : Read.idx_main_v2 (Read.idx_main_v3 i) = (ix1 (i 0) : S8192.Idx) :=
  funext fun a => Fin.ext (by match a with | ⟨0, _⟩ => rfl)

/-! ## The stages -/

/-- The first product is features times weight. -/
theorem v0_eq (x0 : FVec Ideal S8192x256 .f32) (x3 : FVec Ideal S256x256 .f32) :
    Read.val_main_v0 (F := Ideal) x0 x3 = Cert.Wavelet.mulW x0 x3 := by
  funext i
  rw [Read.val_main_v0_apply]
  unfold Cert.Wavelet.mulW
  refine Finset.sum_congr rfl fun k _ => ?_
  rw [lidx_v0, ridx_v0]

/-- The second product is the inverse basis times the first. -/
theorem v1_eq (x0 : FVec Ideal S8192x256 .f32) (x2 : FVec Ideal S8192x8192 .f32) (x3 : FVec Ideal S256x256 .f32) :
    Read.val_main_v1 (F := Ideal) x0 x2 x3 = Cert.Wavelet.mulN x2 (Cert.Wavelet.mulW x0 x3) := by
  funext i
  rw [Read.val_main_v1_apply, v0_eq]
  unfold Cert.Wavelet.mulN
  refine Finset.sum_congr rfl fun k _ => ?_
  rw [lidx_v1, ridx_v1]

/-- The filter, broadcast to a column and then along the channels, is at (r, q) its r-th factor. -/
theorem v3_apply (x4 : FVec Ideal S8192 .f32) (i : S8192x256.Idx) :
    Read.val_main_v3 (F := Ideal) x4 i = x4 (ix1 (i 0)) := by
  rw [Read.val_main_v3_apply, Read.val_main_v2_apply, idx_v32]

/-- The elementwise product is the row scaling of the second product. -/
theorem v4_eq (x0 : FVec Ideal S8192x256 .f32) (x2 : FVec Ideal S8192x8192 .f32) (x3 : FVec Ideal S256x256 .f32)
    (x4 : FVec Ideal S8192 .f32) :
    Read.val_main_v4 (F := Ideal) x0 x2 x3 x4
      = Cert.Wavelet.scaleRows x4 (Cert.Wavelet.mulN x2 (Cert.Wavelet.mulW x0 x3)) := by
  funext i
  rw [Read.val_main_v4_apply, v3_apply, v1_eq, Ideal.mulf_def]
  rfl

/-- The last product is the basis times the scaled rows: the whole layer. -/
theorem v5_eq (x0 : FVec Ideal S8192x256 .f32) (x1 x2 : FVec Ideal S8192x8192 .f32) (x3 : FVec Ideal S256x256 .f32)
    (x4 : FVec Ideal S8192 .f32) :
    Read.val_main_v5 (F := Ideal) x0 x1 x2 x3 x4 = Cert.Wavelet.layer x0 x1 x2 x3 x4 := by
  funext i
  rw [Read.val_main_v5_apply, v4_eq]
  unfold Cert.Wavelet.layer Cert.Wavelet.mulN
  refine Finset.sum_congr rfl fun k _ => ?_
  rw [lidx_v5, ridx_v5]

/-- The term the reference's run leaves in its result is the layer of the five arguments. -/
theorem result_eq (x0 : FVec Ideal S8192x256 .f32) (x1 x2 : FVec Ideal S8192x8192 .f32) (x3 : FVec Ideal S256x256 .f32)
    (x4 : FVec Ideal S8192 .f32) :
    Host.dotGeneral (F := Ideal) dot_S8192x8192_S8192x256_S8192x256_1_0_0_1_n_n none x1
        (mulf (broadcastInDim S8192x256 ![0, 1] bcast_S8192x1_S8192x256_0_1
            (broadcastInDim S8192x1 ![0] bcast_S8192_S8192x1_0 x4))
          (Host.dotGeneral (F := Ideal) dot_S8192x8192_S8192x256_S8192x256_1_0_0_1_n_n none x2
            (Host.dotGeneral (F := Ideal) dot_S8192x256_S256x256_S8192x256_1_0_0_1_n_n none x0 x3)))
      = Cert.Wavelet.layer x0 x1 x2 x3 x4 :=
  (Read.val_main_v5_eq (F := Ideal) x0 x1 x2 x3 x4).trans (v5_eq x0 x1 x2 x3 x4)

/-- Every weakly fair execution of the reference, from any memory with zero counters, ends with its result at the layer
    of the five arguments it was launched with, and the arguments unchanged. -/
theorem run_layer (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v5)
          = Cert.Wavelet.layer (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono (fun _ h c => ⟨(h c).1.trans (result_eq _ _ _ _ _), (h c).2⟩)
    (Cert.ReferenceIdeal.Value.run (F := Ideal) m' ρ')

end Cert.Wavelet.Ref

end
-- ==== Proof.lean ====
/-
  The certificate of a graph-wavelet layer: out = Ψ · (diag s · (Ψ⁻¹ · (X · W))).

  The kernel program is three tiled matrix products. Each cuts its left matrix into row blocks and its contraction into
  stretches, keeps the running block in a scratch buffer across the stretches of a row block (zero at the first, written
  out at the last; the second product scales its rows by the filter on the way out) and feeds the matrix unit operands
  rounded to a shorter float format. Over the extended reals rounding is the identity and every product an exact sum, so
  each kernel region leaves in its result array the plain matrix product of its operands: a sum taken stretch by stretch
  is the whole sum, by associativity and commutativity of addition alone — nothing is cancelled or distributed, so no
  finiteness of the inputs is used. The reference computes the same three products and the same scaling on the host, the
  factor on the other side of the multiplication; the two results are one function of the five inputs
  (Proof/Spec.lean, layer).

  The frames. Each kernel program's run is the launch of four segments — a kernel region, the reshape of the filter to a
  column, two more kernel regions — over a fold of the buffers' contents from the launch memory (Proof/KernelIdeal/,
  generic in the float instance; Proof/Kernel/ is the same text read at the program as printed). Per region: the body run
  once per case of its two conditions on the stretch number, the stores it leaves read back as the running product, the
  region's invariant carrying the scratch block at that product between points. No argument array is written by any
  segment. The reference's frame is its generated run with the result dropped. The idealization rewrote nothing:
  preserves is trivial.
-/
import proofs.«124954_j13383118094872_1_alg».proof.Defs
import proofs.«124954_j13383118094872_1_alg».proof.Proof.Gen.Kernel
import proofs.«124954_j13383118094872_1_alg».proof.Proof.Gen.KernelIdeal
import proofs.«124954_j13383118094872_1_alg».proof.Proof.Gen.ReferenceIdeal
import proofs.«124954_j13383118094872_1_alg».proof.Proof.Gen.Pre_finite_inputs
import proofs.«124954_j13383118094872_1_alg».proof.Proof.Kernel.Run
import proofs.«124954_j13383118094872_1_alg».proof.Proof.KernelIdeal.Run
import proofs.«124954_j13383118094872_1_alg».proof.Proof.KernelIdeal.Chain
import proofs.«124954_j13383118094872_1_alg».proof.Proof.RefValue
import Idealize.ShloMosaic.Adequacy
import Idealize.ShloMosaic.Init

noncomputable section

namespace Cert.Proof

open Idealize.ShloMosaic Idealize.SL.Sem

/-- The program as printed runs and leaves its arguments alone. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Over the extended reals both programs end with the layer of their (agreeing) arguments in the result buffer. -/
theorem algebraic : Cert.algebraic_KernelIdeal_ReferenceIdeal := by
  intro m ρ m' ρ' _ hagree
  refine ⟨fun c => Cert.Wavelet.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun _ h c => ?_) (Cert.KernelIdeal.Hand.run_all (F := Ideal) m ρ)
    exact ⟨(h c _ (Cert.KernelIdeal.Hand.mem_uc Cert.KernelIdeal.main_v3 (by decide))).trans (Cert.KernelIdeal.Hand.W4_main_v3 m ρ c),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c)⟩
  · refine (θ_run Cert.ReferenceIdeal.defs _ _).mono (fun _ h c => ⟨?_, (h c).2⟩) (Cert.Wavelet.Ref.run_layer m' ρ')
    rw [(h c).1, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
